-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4000 : Shape := ⟨2, ![4096, 4000]⟩
abbrev S4096x512 : Shape := ⟨2, ![4096, 512]⟩
abbrev S2000x256 : Shape := ⟨2, ![2000, 256]⟩
abbrev S256x256 : Shape := ⟨2, ![256, 256]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S_ : Shape := ⟨0, ![]⟩

class Facts : Prop where
  bcast_S_S4096x4000 : S_.BroadcastsInDim S4096x4000 (![] : Fin 0 → Fin S4096x4000.rank)
  reducesTo_S4096x4000_S_d0_1 : S4096x4000.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S2000x256 : S_.BroadcastsInDim S2000x256 (![] : Fin 0 → Fin S2000x256.rank)
  reducesTo_S2000x256_S_d0_1 : S2000x256.ReducesTo [0, 1] S_
  bcast_S_S256x256 : S_.BroadcastsInDim S256x256 (![] : Fin 0 → Fin S256x256.rank)
  reducesTo_S256x256_S_d0_1 : S256x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_

variable [Facts]

def fn_part5 {F : FTy → Type} [FloatOps F] (main_v83 : IVec S_ 1) (main_v84 : FVec F S1536 .f32) (main_cst_32 : FVec F S_ .f32) : IVec S_ 1 :=
  let main_v85 : FVec F S1536 .f32 := broadcastInDim S1536 ![] bcast_S_S1536 main_cst_32
  let main_v86 : IVec S1536 1 := cmpf .olt main_v84 main_v85
  let main_c_33 : IVec S_ 1 := constantI S_ 1 1#1
  let main_v87 : IVec S_ 1 := (fun x v => Host.reduce IntOp.andi x v reducesTo_S1536_S_d0 h_S_) main_v86 main_c_33
  let main_v88 : IVec S_ 1 := andi main_v83 main_v87
  main_v88

def fn_part4 {F : FTy → Type} [FloatOps F] (main_arg14 : FVec F S512 .f32) (main_arg15 : FVec F S512x1536 .f32) (main_arg16 : FVec F S512x1536 .f32) (main_arg17 : FVec F S1536 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x1536 .f32 := Host.absf main_arg15
  let main_cst_28 : FVec F S_ .f32 := constant S_ .f32 0x7F800000#32
  let main_v75 : FVec F S512x1536 .f32 := broadcastInDim S512x1536 ![] bcast_S_S512x1536 main_cst_28
  let main_v76 : IVec S512x1536 1 := cmpf .olt main_v74 main_v75
  let main_c_29 : IVec S_ 1 := constantI S_ 1 1#1
  let main_v77 : IVec S_ 1 := (fun x v => Host.reduce IntOp.andi x v reducesTo_S512x1536_S_d0_1 h_S_) main_v76 main_c_29
  let main_v78 : IVec S_ 1 := andi main_v73 main_v77
  let main_v79 : FVec F S512x1536 .f32 := Host.absf main_arg16
  let main_cst_30 : FVec F S_ .f32 := constant S_ .f32 0x7F800000#32
  let main_v80 : FVec F S512x1536 .f32 := broadcastInDim S512x1536 ![] bcast_S_S512x1536 main_cst_30
  let main_v81 : IVec S512x1536 1 := cmpf .olt main_v79 main_v80
  let main_c_31 : IVec S_ 1 := constantI S_ 1 1#1
  let main_v82 : IVec S_ 1 := (fun x v => Host.reduce IntOp.andi x v reducesTo_S512x1536_S_d0_1 h_S_) main_v81 main_c_31
  let main_v83 : IVec S_ 1 := andi main_v78 main_v82
  let main_v84 : FVec F S1536 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x1536 .f32) (main_arg16 : FVec F S512x1536 .f32) (main_arg17 : FVec F S1536 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_v63 main_v67

def fn_part2 {F : FTy → Type} [FloatOps F] (main_arg7 : FVec F S256x256 .f32) (main_arg8 : FVec F S256x256 .f32) (main_arg9 : FVec F S256x256 .f32) (main_arg10 : FVec F S256x256 .f32) (main_arg11 : FVec F S512x512 .f32) (main_arg12 : FVec F S512 .f32) (main_arg13 : FVec F S512x512 .f32) (main_arg14 : FVec F S512 .f32) (main_arg15 : FVec F S512x1536 .f32) (main_arg16 : FVec F S512x1536 .f32) (main_arg17 : FVec F S1536 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S2000x256 .f32) (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S512x512 .f32) (main_arg12 : FVec F S512 .f32) (main_arg13 : FVec F S512x512 .f32) (main_arg14 : FVec F S512 .f32) (main_arg15 : FVec F S512x1536 .f32) (main_arg16 : FVec F S512x1536 .f32) (main_arg17 : FVec F S1536 .f32) (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  let main_v19 : FVec F S2000x256 .f32 := Host.absf main_arg4
  let main_cst_6 : FVec F S_ .f32 := constant S_ .f32 0x7F800000#32
  let main_v20 : FVec F S2000x256 .f32 := broadcastInDim S2000x256 ![] bcast_S_S2000x256 main_cst_6
  let main_v21 : IVec S2000x256 1 := cmpf .olt main_v19 main_v20
  let main_c_7 : IVec S_ 1 := constantI S_ 1 1#1
  let main_v22 : IVec S_ 1 := (fun x v => Host.reduce IntOp.andi x v reducesTo_S2000x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4096x4000 .f32) (main_arg1 : FVec F S4096x512 .f32) (main_arg2 : FVec F S4096x512 .f32) (main_arg3 : FVec F S2000x256 .f32) (main_arg4 : FVec F S2000x256 .f32) (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S512x512 .f32) (main_arg12 : FVec F S512 .f32) (main_arg13 : FVec F S512x512 .f32) (main_arg14 : FVec F S512 .f32) (main_arg15 : FVec F S512x1536 .f32) (main_arg16 : FVec F S512x1536 .f32) (main_arg17 : FVec F S1536 .f32) : IVec S_ 1 :=
  let main_v0 : FVec F S4096x4000 .f32 := Host.absf main_arg0
  let main_cst : FVec F S_ .f32 := constant S_ .f32 0x7F800000#32
  let main_v1 : FVec F S4096x4000 .f32 := broadcastInDim S4096x4000 ![] bcast_S_S4096x4000 main_cst
  let main_v2 : IVec S4096x4000 1 := cmpf .olt main_v0 main_v1
  let main_c : IVec S_ 1 := constantI S_ 1 1#1
  let main_v3 : IVec S_ 1 := (fun x v => Host.reduce IntOp.andi x v reducesTo_S4096x4000_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4096x4000 : Shape := ⟨2, ![4096, 4000]⟩
abbrev S4096x512 : Shape := ⟨2, ![4096, 512]⟩
abbrev S2000x256 : Shape := ⟨2, ![2000, 256]⟩
abbrev S256x256 : Shape := ⟨2, ![256, 256]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S_ : Shape := ⟨0, ![]⟩
abbrev S2000x512 : Shape := ⟨2, ![2000, 512]⟩
abbrev S4000x512 : Shape := ⟨2, ![4000, 512]⟩
abbrev S1x512 : Shape := ⟨2, ![1, 512]⟩
abbrev S1x1536 : Shape := ⟨2, ![1, 1536]⟩
abbrev S512x4000 : Shape := ⟨2, ![512, 4000]⟩
abbrev S512x256 : Shape := ⟨2, ![512, 256]⟩
abbrev S512x1 : Shape := ⟨2, ![512, 1]⟩
abbrev S512x1024 : Shape := ⟨2, ![512, 1024]⟩

abbrev nBuf : Space → Nat
  | .hbm => 41
  | .vmem => 24
  | .smem => 0
  | _ => 0

abbrev bufTy : (tb : Table) → Fin (tcTables nBuf tb) → BufTy
  | .hbm, ⟨0, _⟩ => ⟨S4096x4000, .f32⟩
  | .hbm, ⟨1, _⟩ => ⟨S4096x512, .f32⟩
  | .hbm, ⟨2, _⟩ => ⟨S4096x512, .f32⟩
  | .hbm, ⟨3, _⟩ => ⟨S2000x256, .f32⟩
  | .hbm, ⟨4, _⟩ => ⟨S2000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1536, .f32⟩
  | .hbm, ⟨16, _⟩ => ⟨S512x1536, .f32⟩
  | .hbm, ⟨17, _⟩ => ⟨S1536, .f32⟩
  | .hbm, ⟨18, _⟩ => ⟨S_, .f32⟩
  | .hbm, ⟨19, _⟩ => ⟨S2000x256, .f32⟩
  | .hbm, ⟨20, _⟩ => ⟨S_, .f32⟩
  | .hbm, ⟨21, _⟩ => ⟨S2000x256, .f32⟩
  | .hbm, ⟨22, _⟩ => ⟨S2000x512, .f32⟩
  | .hbm, ⟨23, _⟩ => ⟨S2000x512, .f32⟩
  | .hbm, ⟨24, _⟩ => ⟨S4000x512, .f32⟩
  | .hbm, ⟨25, _⟩ => ⟨S4000x512, .bf16⟩
  | .hbm, ⟨26, _⟩ => ⟨S256x256, .bf16⟩
  | .hbm, ⟨27, _⟩ => ⟨S256x256, .bf16⟩
  | .hbm, ⟨28, _⟩ => ⟨S256x256, .bf16⟩
  | .hbm, ⟨29, _⟩ => ⟨S256x256, .bf16⟩
  | .hbm, ⟨30, _⟩ => ⟨S256x256, .bf16⟩
  | .hbm, ⟨31, _⟩ => ⟨S256x256, .bf16⟩
  | .hbm, ⟨32, _⟩ => ⟨S512x512, .bf16⟩
  | .hbm, ⟨33, _⟩ => ⟨S512x512, .bf16⟩
  | .hbm, ⟨34, _⟩ => ⟨S512x1536, .bf16⟩
  | .hbm, ⟨35, _⟩ => ⟨S512x1536, .bf16⟩
  | .hbm, ⟨36, _⟩ => ⟨S1x512, .f32⟩
  | .hbm, ⟨37, _⟩ => ⟨S1x512, .f32⟩
  | .hbm, ⟨38, _⟩ => ⟨S1x1536, .f32⟩
  | .hbm, ⟨39, _⟩ => ⟨S4096x512, .f32⟩
  | .hbm, ⟨40, _⟩ => ⟨S4096x512, .f32⟩
  | .local _ .vmem, ⟨0, _⟩ => ⟨S512x4000, .f32⟩
  | .local _ .vmem, ⟨1, _⟩ => ⟨S512x4000, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4000x512, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S512x512, .bf16⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S512x1536, .bf16⟩
  | .local _ .vmem, ⟨18, _⟩ => ⟨S512x1536, .bf16⟩
  | .local _ .vmem, ⟨19, _⟩ => ⟨S1x1536, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S4096x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4000x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1536 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S2000x256 : S_.BroadcastsInDim S2000x256 (![] : Fin 0 → Fin S2000x256.rank)
  concatenates_S2000x256_S2000x256_S2000x512_d1 : Shape.Concatenates [S2000x256, S2000x256] S2000x512 1
  concatenates_S2000x512_S2000x512_S4000x512_d0 : Shape.Concatenates [S2000x512, S2000x512] S4000x512 0
  bitsLt_bf16_f32 : FTy.bits .bf16 < FTy.bits .f32
  shapeCasts_S512_S1x512 : S512.ShapeCasts S1x512
  shapeCasts_S1536_S1x1536 : S1536.ShapeCasts S1x1536
  inb_S512x4000_S512x4000_0_0 : ∀ a, (![0, 0] : Fin 2 → Nat) a + S512x4000.size a ≤ S512x4000.size a
  h_S512x4000 : 0 < S512x4000.numel
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  slices_S512x512_o0_0_S512x256 : S512x512.Slices ![0, 0] S512x256
  slices_S512x512_o0_256_S512x256 : S512x512.Slices ![0, 256] S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S512x256_S512 : S512x256.Reduces [1] S512
  shapeCasts_S512_S512x1 : S512.ShapeCasts S512x1
  broadcasts_S512x1_S512x256 : S512x1.Broadcasts S512x256
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S512x1536_o0_0_S512x1024 : S512x1536.Slices ![0, 0] S512x1024
  slices_S512x1024_o0_0_S512x512 : S512x1024.Slices ![0, 0] S512x512
  slices_S512x1024_o0_512_S512x512 : S512x1024.Slices ![0, 512] S512x512
  dot_S512x4000_S4000x512_S512x512_1_0_0_1_n_n_wf : DotDims.WF S512x4000 S4000x512 S512x512 [1] [0] [0] [1] [] []
  dot_S512x256_S256x256_S512x256_1_0_0_1_n_n_wf : DotDims.WF S512x256 S256x256 S512x256 [1] [0] [0] [1] [] []
  dot_S512x512_S512x512_S512x512_1_0_0_1_n_n_wf : DotDims.WF S512x512 S512x512 S512x512 [1] [0] [0] [1] [] []
  dot_S512x512_S512x1536_S512x1536_1_0_0_1_n_n_wf : DotDims.WF S512x512 S512x1536 S512x1536 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4000.size a ≤ S4096x4000.size a
  hwx0_0 : ∀ i : grid0.Coords, EltTy.bits .f32 = 32 ∨ (Rect.block (s := S4096x4000) S512x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4000x512.size a ≤ S4000x512.size a
  hwx0_3 : ∀ i : grid0.Coords, EltTy.bits .bf16 = 32 ∨ (Rect.block (s := S4000x512) S4000x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1536.size a ≤ S512x1536.size a
  hwx0_14 : ∀ i : grid0.Coords, EltTy.bits .bf16 = 32 ∨ (Rect.block (s := S512x1536) S512x1536.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x1536.size a ≤ S512x1536.size a
  hwx0_15 : ∀ i : grid0.Coords, EltTy.bits .bf16 = 32 ∨ (Rect.block (s := S512x1536) S512x1536.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1536.size a ≤ S1x1536.size a
  hwx0_16 : ∀ i : grid0.Coords, EltTy.bits .f32 = 32 ∨ (Rect.block (s := S1x1536) S1x1536.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S4096x512.size a
  hwx0_17 : ∀ i : grid0.Coords, EltTy.bits .f32 = 32 ∨ (Rect.block (s := S4096x512) S512x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S4096x512.size a
  hwx0_18 : ∀ i : grid0.Coords, EltTy.bits .f32 = 32 ∨ (Rect.block (s := S4096x512) S512x512.size (cc0_transform_18 i) (hinb0_18 i)).WholeWords (EltTy.packing .f32)

variable [Facts₀]

def dot_S512x4000_S4000x512_S512x512_1_0_0_1_n_n : DotDims S512x4000 S4000x512 S512x512 where
  lhsContracting := [1]
  rhsContracting := [0]
  lhsNonContracting := [0]
  rhsNonContracting := [1]
  lhsBatch := []
  rhsBatch := []
  wf := dot_S512x4000_S4000x512_S512x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S512x1536.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S512x1536.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S1x1536.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19_0) S512x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v19_1) S512x512.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x4000 : Shape := ⟨2, ![4096, 4000]⟩
abbrev S4096x512 : Shape := ⟨2, ![4096, 512]⟩
abbrev S2000x256 : Shape := ⟨2, ![2000, 256]⟩
abbrev S256x256 : Shape := ⟨2, ![256, 256]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S4096x2000 : Shape := ⟨2, ![4096, 2000]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x1536 : Shape := ⟨2, ![4096, 1536]⟩
abbrev S1x1536 : Shape := ⟨2, ![1, 1536]⟩
abbrev S512x1024 : Shape := ⟨2, ![512, 1024]⟩
abbrev S4096x1024 : Shape := ⟨2, ![4096, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x4000, .f32⟩
  | .hbm, ⟨1, _⟩ => ⟨S4096x512, .f32⟩
  | .hbm, ⟨2, _⟩ => ⟨S4096x512, .f32⟩
  | .hbm, ⟨3, _⟩ => ⟨S2000x256, .f32⟩
  | .hbm, ⟨4, _⟩ => ⟨S2000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1536, .f32⟩
  | .hbm, ⟨16, _⟩ => ⟨S512x1536, .f32⟩
  | .hbm, ⟨17, _⟩ => ⟨S1536, .f32⟩
  | .hbm, ⟨18, _⟩ => ⟨S4096x2000, .f32⟩
  | .hbm, ⟨19, _⟩ => ⟨S4096x2000, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x512, .f32⟩
  | .hbm, ⟨65, _⟩ => ⟨S4096x512, .f32⟩
  | .hbm, ⟨66, _⟩ => ⟨S1x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x1536, .f32⟩
  | .hbm, ⟨77, _⟩ => ⟨S1x1536, .f32⟩
  | .hbm, ⟨78, _⟩ => ⟨S4096x1536, .f32⟩
  | .hbm, ⟨79, _⟩ => ⟨S4096x1536, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S512x1024, .f32⟩
  | .hbm, ⟨84, _⟩ => ⟨S4096x1024, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S_, .f32⟩
  | .hbm, ⟨90, _⟩ => ⟨S4096x512, .f32⟩
  | .hbm, ⟨91, _⟩ => ⟨S4096x512, .f32⟩
  | .hbm, ⟨92, _⟩ => ⟨S_, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x512, .f32⟩
  | .hbm, ⟨99, _⟩ => ⟨S_, .f32⟩
  | .hbm, ⟨100, _⟩ => ⟨S4096x512, .f32⟩
  | .hbm, ⟨101, _⟩ => ⟨S4096x512, .f32⟩
  | .hbm, ⟨102, _⟩ => ⟨S_, .f32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S512x512, .f32⟩
  | .hbm, ⟨107, _⟩ => ⟨S4096x512, .f32⟩
  | .hbm, ⟨108, _⟩ => ⟨S4096x512, .f32⟩
  | .hbm, ⟨109, _⟩ => ⟨S4096x512, .f32⟩
  | .hbm, ⟨110, _⟩ => ⟨S4096x512, .f32⟩
  | .hbm, ⟨111, _⟩ => ⟨S_, .f32⟩
  | .hbm, ⟨112, _⟩ => ⟨S4096x512, .f32⟩
  | .hbm, ⟨113, _⟩ => ⟨S4096x512, .f32⟩
  | .hbm, ⟨114, _⟩ => ⟨S4096x512, .f32⟩
  | .hbm, ⟨115, _⟩ => ⟨S4096x512, .f32⟩
  | .hbm, ⟨116, _⟩ => ⟨S_, .f32⟩
  | .hbm, ⟨117, _⟩ => ⟨S4096x512, .f32⟩
  | .hbm, ⟨118, _⟩ => ⟨S4096x512, .f32⟩
  | .hbm, ⟨119, _⟩ => ⟨S_, .f32⟩
  | .hbm, ⟨120, _⟩ => ⟨S4096x512, .f32⟩
  | .hbm, ⟨121, _⟩ => ⟨S4096x512, .f32⟩
  | .hbm, ⟨122, _⟩ => ⟨S4096x512, .f32⟩
  | _, _ => ⟨S4096x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_7 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_9 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_10 : Ref sig .tc := ⟨.hbm, 116, rfl⟩
abbrev main_v87 : Ref sig .tc := ⟨.hbm, 117, rfl⟩
abbrev main_v88 : Ref sig .tc := ⟨.hbm, 118, rfl⟩
abbrev main_cst_11 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  slices_S4096x4000_S4096x2000_0_0 : S4096x4000.Slices ![0, 0] S4096x2000
  slices_S4096x4000_S4096x2000_0_2000 : S4096x4000.Slices ![0, 2000] S4096x2000
  reducesTo_S4096x256_S4096_d1 : S4096x256.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  slices_S512x1536_S512x1024_0_0 : S512x1536.Slices ![0, 0] S512x1024
  slices_S4096x1024_S4096x512_0_0 : S4096x1024.Slices ![0, 0] S4096x512
  bcast_S_S4096x512 : S_.BroadcastsInDim S4096x512 (![] : Fin 0 → Fin S4096x512.rank)
  slices_S4096x1024_S4096x512_0_512 : S4096x1024.Slices ![0, 512] S4096x512
  slices_S512x1536_S512x512_0_1024 : S512x1536.Slices ![0, 1024] S512x512
  dot_S4096x2000_S2000x256_S4096x256_1_0_0_1_n_n_wf : DotDims.WF S4096x2000 S2000x256 S4096x256 [1] [0] [0] [1] [] []
  dot_S4096x256_S256x256_S4096x256_1_0_0_1_n_n_wf : DotDims.WF S4096x256 S256x256 S4096x256 [1] [0] [0] [1] [] []
  dot_S4096x512_S512x512_S4096x512_1_0_0_1_n_n_wf : DotDims.WF S4096x512 S512x512 S4096x512 [1] [0] [0] [1] [] []
  dot_S4096x512_S512x1536_S4096x1536_1_0_0_1_n_n_wf : DotDims.WF S4096x512 S512x1536 S4096x1536 [1] [0] [0] [1] [] []
  dot_S4096x512_S512x1024_S4096x1024_1_0_0_1_n_n_wf : DotDims.WF S4096x512 S512x1024 S4096x1024 [1] [0] [0] [1] [] []

variable [Facts₀]

def dot_S4096x2000_S2000x256_S4096x256_1_0_0_1_n_n : DotDims S4096x2000 S2000x256 S4096x256 where
  lhsContracting := [1]
  rhsContracting := [0]
  lhsNonContracting := [0]
  rhsNonContracting := [1]
  lhsBatch := []
  rhsBatch := []
  wf := dot_S4096x2000_S2000x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1536_S4096x1536_1_0_0_1_n_n : DotDims S4096x512 S512x1536 S4096x1536 where
  lhsContracting := [1]
  rhsContracting := [0]
  lhsNonContracting := [0]
  rhsNonContracting := [1]
  lhsBatch := []
  rhsBatch := []
  wf := dot_S4096x512_S512x1536_S4096x1536_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

class Facts : Prop extends Facts₀ where

variable [Facts]
-- ==== Proof.Spec.lean ====
/-
  One step of the cell for ONE batch row, on the extended reals.

  A row carries its 4000 input features `x`, its previous hidden state `h` and its previous cross-history `c`.
  The first 2000 features are embedded by `W1` and the last 2000 by `W2`, each into 256 coordinates. Each
  embedding is gated by a softmax over its 256 coordinates of `tanh (own projection + other projection) · value`,
  the two gated embeddings are joined side by side into 512 coordinates `xc`. The cross-history is decomposed
  (`cro`), projected and added to the hidden state (`hp`). A GRU step with update gate `zg`, reset gate `rg` and
  candidate `hh` gives the new hidden state `hnew`; the new cross-history `cnew` is the even mixture of `c`
  and `xc`. Every sum is a finite sum over the contracted coordinate; nothing is rounded.
-/
import Idealize.ShloMosaic.PureOps.Ideal

noncomputable section

namespace Cert.Spec

open Idealize.ShloMosaic

/-- The weights of the cell, each matrix as a function of (row, column). -/
structure Params where
  W1 : Fin 2000 → Fin 256 → EReal
  W2 : Fin 2000 → Fin 256 → EReal
  A5 : Fin 256 → Fin 256 → EReal
  A6 : Fin 256 → Fin 256 → EReal
  A7 : Fin 256 → Fin 256 → EReal
  A8 : Fin 256 → Fin 256 → EReal
  A9 : Fin 256 → Fin 256 → EReal
  A10 : Fin 256 → Fin 256 → EReal
  CW : Fin 512 → Fin 512 → EReal
  cb : Fin 512 → EReal
  CDW : Fin 512 → Fin 512 → EReal
  cdb : Fin 512 → EReal
  KM : Fin 512 → Fin 1536 → EReal
  RK : Fin 512 → Fin 1536 → EReal
  bv : Fin 1536 → EReal

/-- A coordinate of a shorter axis as the same coordinate of a longer one. -/
def up {n N : Nat} (h : n ≤ N) (j : Fin n) : Fin N := ⟨j.val, lt_of_lt_of_le j.isLt h⟩

/-- A coordinate of a shorter axis moved `o` places to the right inside a longer one. -/
def off (o : Nat) {n N : Nat} (h : o + n ≤ N) (j : Fin n) : Fin N := ⟨o + j.val, by have := j.isLt; omega⟩

/-- A row vector times a matrix, at column `j`. -/
def mv {K N : Nat} (v : Fin K → EReal) (W : Fin K → Fin N → EReal) (j : Fin N) : EReal := ∑ k : Fin K, v k * W k j

/-- Minus infinity, the value a maximum starts from. -/
def negInf : EReal := Ideal.ofBits .f32 0xFF800000#32

/-- The largest entry of a row (and minus infinity for the empty row). -/
def rowMax {n : Nat} (g : Fin n → EReal) : EReal := max negInf ((Finset.univ : Finset (Fin n)).fold max negInf g)

/-- The softmax of a row at coordinate `j`: the exponentials are taken after subtracting the row's maximum. -/
def att {n : Nat} (g : Fin n → EReal) (j : Fin n) : EReal :=
  Ideal.div (Ideal.exp (g j - rowMax g)) (∑ k : Fin n, Ideal.exp (g k - rowMax g))

/-- The number one and the number one half, as the programs spell them. -/
def one : EReal := Ideal.ofBits .f32 0x3F800000#32
def half : EReal := Ideal.ofBits .f32 0x3F000000#32

variable (P : Params) (x : Fin 4000 → EReal) (h c : Fin 512 → EReal)

/-- The embedding of the first 2000 features. -/
def emb1 (j : Fin 256) : EReal := ∑ k : Fin 2000, x (up (by decide) k) * P.W1 k j
/-- The embedding of the last 2000 features. -/
def emb2 (j : Fin 256) : EReal := ∑ k : Fin 2000, x (off 2000 (by decide) k) * P.W2 k j

/-- The attention logits of the first embedding: `tanh (e1·A5 + e2·A6) · (e2·A7)`. -/
def g12 (j : Fin 256) : EReal :=
  Ideal.tanh (mv (emb1 P x) P.A5 j + mv (emb2 P x) P.A6 j) * mv (emb2 P x) P.A7 j
/-- The attention logits of the second embedding: `tanh (e2·A8 + e1·A9) · (e1·A10)`. -/
def g21 (j : Fin 256) : EReal :=
  Ideal.tanh (mv (emb2 P x) P.A8 j + mv (emb1 P x) P.A9 j) * mv (emb1 P x) P.A10 j

/-- The two gated embeddings side by side. -/
def xc (j : Fin 512) : EReal :=
  if hj : j.val < 256 then emb1 P x ⟨j.val, hj⟩ * att (g12 P x) ⟨j.val, hj⟩
  else emb2 P x ⟨j.val - 256, by have := j.isLt; omega⟩ * att (g21 P x) ⟨j.val - 256, by have := j.isLt; omega⟩

/-- The decomposed cross-history. -/
def cro (j : Fin 512) : EReal := Ideal.tanh (mv c P.CDW j + P.cdb j)
/-- The hidden state the GRU step starts from. -/
def hp (j : Fin 512) : EReal := h j + Ideal.tanh (mv (cro P c) P.CW j + P.cb j)

/-- The input's contribution to the three gates, 1536 coordinates. -/
def mx (j : Fin 1536) : EReal := mv (xc P x) P.KM j + P.bv j
/-- The hidden state's contribution to the update and reset gates, 1024 coordinates. -/
def mi (j : Fin 1024) : EReal := mv (hp P h c) (fun k j' => P.RK k (up (by decide) j')) j

/-- The update gate. -/
def zg (j : Fin 512) : EReal := Ideal.logistic (mx P x (up (by decide) j) + mi P h c (up (by decide) j))
/-- The reset gate. -/
def rg (j : Fin 512) : EReal := Ideal.logistic (mx P x (off 512 (by decide) j) + mi P h c (off 512 (by decide) j))
/-- The candidate state. -/
def hh (j : Fin 512) : EReal :=
  Ideal.tanh (mx P x (off 1024 (by decide) j)
    + mv (fun k => rg P x h c k * hp P h c k) (fun k j' => P.RK k (off 1024 (by decide) j')) j)

/-- The new hidden state. -/
def hnew (j : Fin 512) : EReal := zg P x h c j * hp P h c j + (one - zg P x h c j) * hh P x h c j
/-- The new cross-history. -/
def cnew (j : Fin 512) : EReal := half * c j + half * xc P x j

end Cert.Spec

end
-- ==== Proof.Whole.lean ====
/-
  The two result arrays as functions of the eighteen argument arrays, row by row, and the arrays the kernel's
  resident windows hold, as functions of the weights.

  Row `b` of each result depends on row `b` of the three batch arrays only: `Gh` is the new hidden state and
  `Gc` the new cross-history of `Cert.Spec`, applied to that row. The kernel embeds both halves of the input with
  ONE product against the block matrix `comb`: `W1` in the upper-left 2000×256 corner, `W2` in the lower-right
  one, zeros elsewhere.
-/
import proofs.«408809_j19172734009720_3_alg».proof.Proof.Spec
import Idealize.ShloMosaic.Lib.ValueIdx

noncomputable section

namespace Cert.Spec

open Idealize.ShloMosaic Idealize.ShloMosaic.ValueIdx

/-- A matrix and a vector of extended reals over the library's index types. -/
abbrev Arr2 (R N : Nat) : Type := (⟨2, ![R, N]⟩ : Shape).Idx → EReal
abbrev Arr1 (N : Nat) : Type := (⟨1, ![N]⟩ : Shape).Idx → EReal

/-- Row `b` of a matrix. -/
def rowOf {R N : Nat} (a : Arr2 R N) (b : Fin R) : Fin N → EReal := fun k => a (ix2 b k)
/-- A matrix as a function of (row, column). -/
def matOf {K N : Nat} (a : Arr2 K N) : Fin K → Fin N → EReal := fun k j => a (ix2 k j)
/-- A vector as a function of its coordinate. -/
def vecOf {N : Nat} (a : Arr1 N) : Fin N → EReal := fun j => a (ix1 j)

/-- A function of (row, column) as a matrix. -/
def arrOfMat {K N : Nat} (M : Fin K → Fin N → EReal) : Arr2 K N := fun i => M (i 0) (i 1)
/-- A function of a coordinate as a one-row matrix. -/
def rowArr {N : Nat} (v : Fin N → EReal) : Arr2 1 N := fun i => v (i 1)

/-- The weights read off the fifteen weight arrays. -/
def paramsOf (a3 a4 : Arr2 2000 256) (a5 a6 a7 a8 a9 a10 : Arr2 256 256) (a11 : Arr2 512 512) (a12 : Arr1 512)
    (a13 : Arr2 512 512) (a14 : Arr1 512) (a15 a16 : Arr2 512 1536) (a17 : Arr1 1536) : Params where
  W1 := matOf a3
  W2 := matOf a4
  A5 := matOf a5
  A6 := matOf a6
  A7 := matOf a7
  A8 := matOf a8
  A9 := matOf a9
  A10 := matOf a10
  CW := matOf a11
  cb := vecOf a12
  CDW := matOf a13
  cdb := vecOf a14
  KM := matOf a15
  RK := matOf a16
  bv := vecOf a17

/-- The new hidden state of every batch row. -/
def Gh (P : Params) (a0 : Arr2 4096 4000) (a1 a2 : Arr2 4096 512) : Arr2 4096 512 :=
  fun i => hnew P (rowOf a0 (i 0)) (rowOf a1 (i 0)) (rowOf a2 (i 0)) (i 1)
/-- The new cross-history of every batch row. -/
def Gc (P : Params) (a0 : Arr2 4096 4000) (a2 : Arr2 4096 512) : Arr2 4096 512 :=
  fun i => cnew P (rowOf a0 (i 0)) (rowOf a2 (i 0)) (i 1)

/-- The 4000×512 block matrix `[[W1, 0], [0, W2]]`. -/
def comb (P : Params) : Arr2 4000 512 := fun i =>
  if hk : (i 0).val < 2000 then
    (if hj : (i 1).val < 256 then P.W1 ⟨(i 0).val, hk⟩ ⟨(i 1).val, hj⟩ else 0)
  else
    (if hj : (i 1).val < 256 then 0
     else P.W2 ⟨(i 0).val - 2000, by have := (i 0).isLt; change (i 0).val < 4000 at this; omega⟩
               ⟨(i 1).val - 256, by have := (i 1).isLt; change (i 1).val < 512 at this; omega⟩)

end Cert.Spec

end
-- ==== Proof.LibPlainProduct.lean ====
/- The plain product of an M×K array by a K×N array on the extended reals, accumulated into the all-zero array and
   read at an entry (r, c): the sum over the contracted coordinate k of A (r, k) · B (k, c). A general fact, about no
   particular program. -/
import Idealize.ShloMosaic.PureOps.Ideal.Laws
import Idealize.ShloMosaic.Lib.ValueIdx
import Idealize.ShloMosaic.Lib.StackMember

noncomputable section

namespace Cert.Lib.PlainProduct

open Idealize.ShloMosaic Idealize.ShloMosaic.ValueIdx

/-- Into the zero accumulator a matrix product is the host's product with the same dimension record (both are the sum
    of the operands' products over the contraction index), and the host's plain product at an entry is the sum over
    the contracted coordinate. -/
theorem matmul_zero_plain_apply {M K N : Nat} {φ₁ φ₂ : FTy} (A : FVec Ideal ⟨2, ![M, K]⟩ φ₁) (B : FVec Ideal ⟨2, ![K, N]⟩ φ₂)
    (r : Fin M) (c : Fin N) :
    matmul (F := Ideal) (DotDims.plain M K N) none A B (constant ⟨2, ![M, N]⟩ .f32 0x00000000#32) (ix2 r c)
      = ∑ k : Fin K, A (ix2 r k) * B (ix2 k c) := by
  have h : matmul (F := Ideal) (DotDims.plain M K N) none A B (constant ⟨2, ![M, N]⟩ .f32 0x00000000#32)
      = Host.dotGeneral (F := Ideal) (DotDims.plain M K N) none A B := by
    funext j
    simp only [matmul, Host.dotGeneral]
    rw [Ideal.matmul_constant_zero_apply, Ideal.dotGeneral_apply]
  rw [h]
  exact StackMember.dotGeneral_plain_apply none A B r c

end Cert.Lib.PlainProduct

end
-- ==== Proof.KerEmb.lean ====
/-
  The kernel's embedding, read at an entry of a 512-row block.

  The body multiplies the block of inputs by the 4000×512 block matrix. Against `comb P` the sum over the 4000
  contracted coordinates splits into the first and the last 2000; in each half one of the two blocks of the matrix
  is zero, so columns below 256 give the first embedding and columns from 256 on the second.
-/
import proofs.«408809_j19172734009720_3_alg».proof.Proof.Gen.KernelIdeal.Skeleton
import proofs.«408809_j19172734009720_3_alg».proof.Proof.Whole
import Idealize.ShloMosaic.PureOps.Ideal.Laws
import Idealize.ShloMosaic.Lib.ValueIdx
import Idealize.ShloMosaic.Lib.Pipeline.Value
import proofs.«408809_j19172734009720_3_alg».proof.Proof.LibPlainProduct
import Mathlib.Algebra.BigOperators.Fin

noncomputable section

namespace Cert.KernelIdeal.Pay

open Cert.KernelIdeal Cert.KernelIdeal.Gen Cert.Spec
open Idealize.ShloMosaic Idealize.ShloMosaic.TcCoe Idealize.ShloMosaic.ValueIdx

/-- The product's dimension record is the plain one: rows by columns, one contracted coordinate. -/
private theorem dims_plain : dot_S512x4000_S4000x512_S512x512_1_0_0_1_n_n = DotDims.plain 512 4000 512 := rfl

/-- The product of the input block with the resident matrix at entry (p, j): the sum over the 4000 contracted coordinates. -/
theorem pay1_at (x0 : Vec Ideal S512x4000 .f32) (x3 : Vec Ideal S4000x512 .bf16) (p : Fin 512) (j : Fin 512) :
    k0_pay1 (F := Ideal) x0 x3 (ix2 p j) = ∑ k : Fin 4000, x0 (ix2 p k) * x3 (ix2 k j) := by
  unfold k0_pay1
  -- the change of format is the identity and the cast keeps the shape
  show matmul (F := Ideal) dot_S512x4000_S4000x512_S512x512_1_0_0_1_n_n none x0
      (shapeCast S4000x512 x3 shapeCasts_S4000x512_S4000x512) (constant S512x512 .f32 0x00000000#32) (ix2 p j) = _
  rw [shapeCast_self, dims_plain]
  exact Cert.Lib.PlainProduct.matmul_zero_plain_apply x0 x3 p j

/-- The first 2000 and the last 2000 of 4000 coordinates: a sum over all of them is the sum of the two halves. -/
private theorem sum_split (f : Fin 4000 → EReal) :
    ∑ k : Fin 4000, f k
      = (∑ k : Fin 2000, f (up (by decide) k : Fin 4000)) + ∑ k : Fin 2000, f (off 2000 (by decide) k : Fin 4000) := by
  refine (Fin.sum_univ_add (a := 2000) (b := 2000) f).trans ?_
  exact congrArg₂ (· + ·)
    (Finset.sum_congr rfl fun k _ => congrArg f (Fin.ext rfl))
    (Finset.sum_congr rfl fun k _ => congrArg f (Fin.ext rfl))

/-- The upper-left block of the block matrix is `W1`. -/
private theorem comb_ul (P : Params) (k : Fin 2000) (j : Fin 256) :
    comb P (ix2 (up (by decide) k : Fin 4000) (up (by decide) j : Fin 512)) = P.W1 k j :=
  (dif_pos (show (up (by decide) k : Fin 4000).val < 2000 from k.isLt)).trans
    (dif_pos (show (up (by decide) j : Fin 512).val < 256 from j.isLt))

/-- The lower-left block is zero. -/
private theorem comb_ll (P : Params) (k : Fin 2000) (j : Fin 256) :
    comb P (ix2 (off 2000 (by decide) k : Fin 4000) (up (by decide) j : Fin 512)) = 0 :=
  (dif_neg (show ¬ (off 2000 (by decide) k : Fin 4000).val < 2000 from Nat.not_lt.2 (Nat.le_add_right _ _))).trans
    (dif_pos (show (up (by decide) j : Fin 512).val < 256 from j.isLt))

/-- The upper-right block is zero. -/
private theorem comb_ur (P : Params) (k : Fin 2000) (j : Fin 256) :
    comb P (ix2 (up (by decide) k : Fin 4000) (off 256 (by decide) j : Fin 512)) = 0 :=
  (dif_pos (show (up (by decide) k : Fin 4000).val < 2000 from k.isLt)).trans
    (dif_neg (show ¬ (off 256 (by decide) j : Fin 512).val < 256 from Nat.not_lt.2 (Nat.le_add_right _ _)))

/-- The lower-right block of the block matrix is `W2`. -/
private theorem comb_lr (P : Params) (k : Fin 2000) (j : Fin 256) :
    comb P (ix2 (off 2000 (by decide) k : Fin 4000) (off 256 (by decide) j : Fin 512)) = P.W2 k j :=
  (dif_neg (show ¬ (off 2000 (by decide) k : Fin 4000).val < 2000 from Nat.not_lt.2 (Nat.le_add_right _ _))).trans
    ((dif_neg (show ¬ (off 256 (by decide) j : Fin 512).val < 256 from Nat.not_lt.2 (Nat.le_add_right _ _))).trans
      (congrArg₂ P.W2 (Fin.ext (Nat.add_sub_cancel_left (n := 2000) (m := k.val)))
        (Fin.ext (Nat.add_sub_cancel_left (n := 256) (m := j.val)))))

/-- Columns 0 … 255 of the product against the block matrix are the first embedding of the row. -/
theorem pay2_at (P : Params) (x0 : Vec Ideal S512x4000 .f32) (p : Fin 512) (j : Fin 256) :
    k0_pay2 (F := Ideal) x0 (comb P) (ix2 p j) = emb1 P (rowOf x0 p) j := by
  unfold k0_pay2
  -- column j of the left half of the product is column j of the product
  refine (extractStridedSlice_apply (![0, 0]) (k0_pay1 (F := Ideal) x0 (comb P)) slices_S512x512_o0_0_S512x256
    (ix2 p j) (ix2 p (up (by decide) j : Fin 512)) (fun a => match a with
      | ⟨0, _⟩ => by show p.val = 0 + p.val; omega
      | ⟨1, _⟩ => by show j.val = 0 + j.val; omega)).trans ?_
  refine (pay1_at x0 (comb P) p (up (by decide) j)).trans ?_
  refine (sum_split _).trans ?_
  show (∑ k : Fin 2000, x0 (ix2 p (up (by decide) k : Fin 4000))
          * comb P (ix2 (up (by decide) k : Fin 4000) (up (by decide) j : Fin 512)))
      + (∑ k : Fin 2000, x0 (ix2 p (off 2000 (by decide) k : Fin 4000))
          * comb P (ix2 (off 2000 (by decide) k : Fin 4000) (up (by decide) j : Fin 512))) = _
  -- the last 2000 rows of these columns of the block matrix are zero
  have hz : (∑ k : Fin 2000, x0 (ix2 p (off 2000 (by decide) k : Fin 4000))
      * comb P (ix2 (off 2000 (by decide) k : Fin 4000) (up (by decide) j : Fin 512))) = 0 :=
    Finset.sum_eq_zero fun k _ => by rw [comb_ll, mul_zero]
  rw [hz, add_zero]
  -- the first 2000 rows are W1
  exact Finset.sum_congr rfl fun k _ => by rw [comb_ul]; rfl

/-- Columns 256 … 511 of the product against the block matrix are the second embedding of the row. -/
theorem pay3_at (P : Params) (x0 : Vec Ideal S512x4000 .f32) (p : Fin 512) (j : Fin 256) :
    k0_pay3 (F := Ideal) x0 (comb P) (ix2 p j) = emb2 P (rowOf x0 p) j := by
  unfold k0_pay3
  -- column j of the right half of the product is column 256 + j of the product
  refine (extractStridedSlice_apply (![0, 256]) (k0_pay1 (F := Ideal) x0 (comb P)) slices_S512x512_o0_256_S512x256
    (ix2 p j) (ix2 p (off 256 (by decide) j : Fin 512)) (fun a => match a with
      | ⟨0, _⟩ => by show p.val = 0 + p.val; omega
      | ⟨1, _⟩ => rfl)).trans ?_
  refine (pay1_at x0 (comb P) p (off 256 (by decide) j)).trans ?_
  refine (sum_split _).trans ?_
  show (∑ k : Fin 2000, x0 (ix2 p (up (by decide) k : Fin 4000))
          * comb P (ix2 (up (by decide) k : Fin 4000) (off 256 (by decide) j : Fin 512)))
      + (∑ k : Fin 2000, x0 (ix2 p (off 2000 (by decide) k : Fin 4000))
          * comb P (ix2 (off 2000 (by decide) k : Fin 4000) (off 256 (by decide) j : Fin 512))) = _
  -- the first 2000 rows of these columns of the block matrix are zero
  have hz : (∑ k : Fin 2000, x0 (ix2 p (up (by decide) k : Fin 4000))
      * comb P (ix2 (up (by decide) k : Fin 4000) (off 256 (by decide) j : Fin 512))) = 0 :=
    Finset.sum_eq_zero fun k _ => by rw [comb_ur, mul_zero]
  rw [hz, zero_add]
  -- the last 2000 rows are W2
  exact Finset.sum_congr rfl fun k _ => by rw [comb_lr]; rfl

/-- A change of float format is the identity on the extended reals. -/
theorem pay4_eq (x0 : Vec Ideal S512x4000 .f32) (x3 : Vec Ideal S4000x512 .bf16) :
    k0_pay4 (F := Ideal) x0 x3 = k0_pay2 (F := Ideal) x0 x3 := rfl

theorem pay5_eq (x0 : Vec Ideal S512x4000 .f32) (x3 : Vec Ideal S4000x512 .bf16) :
    k0_pay5 (F := Ideal) x0 x3 = k0_pay3 (F := Ideal) x0 x3 := rfl

end Cert.KernelIdeal.Pay

end
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.KerAtt.lean ====
/-
  The kernel's two attention gates and the joined gated embeddings, read at an entry of a 512-row block.

  Each 256-coordinate product against a resident matrix, read at (p, j), is the sum over the contracted coordinate,
  so it is the row-times-matrix product of row p. The softmax of a block along its rows is read in three steps: the
  row's maximum (a fold of max from minus infinity, then one more max with minus infinity), that maximum spread back
  over the row, and the row's sum of exponentials spread back likewise; at (p, j) the quotient is the softmax of row p
  at j. The joined block reads its left or right half according to whether the column is below 256.
-/
import proofs.«408809_j19172734009720_3_alg».proof.Proof.KerEmb
import proofs.«408809_j19172734009720_3_alg».proof.Proof.LibPlainProduct
import proofs.«408809_j19172734009720_3_alg».proof.Proof.LibLayoutAt
import Idealize.ShloMosaic.PureOps.Ideal.Laws
import Idealize.ShloMosaic.PureOps.Reduce
import Idealize.ShloMosaic.Lib.ValueIdx
import Idealize.ShloMosaic.Lib.Pipeline.Value

noncomputable section

namespace Cert.KernelIdeal.Pay

open Cert.KernelIdeal Cert.KernelIdeal.Gen Cert.Spec
open Idealize.ShloMosaic Idealize.ShloMosaic.TcCoe Idealize.ShloMosaic.ValueIdx

/-! ## A 256-coordinate product at an entry -/

/-- A 512×256 block times a 256×256 matrix, added into the zero block, read at (p, j): the sum over the contracted
    coordinate. The printed dimension record has the fields of the plain one. -/
private theorem prod_at (A : FVec Ideal S512x256 .bf16) (B : FVec Ideal S256x256 .bf16) (p : Fin 512) (j : Fin 256) :
    matmul (F := Ideal) dot_S512x256_S256x256_S512x256_1_0_0_1_n_n none A B (constant S512x256 .f32 0x00000000#32) (ix2 p j)
      = ∑ k : Fin 256, A (ix2 p k) * B (ix2 k j) :=
  Cert.Lib.PlainProduct.matmul_zero_plain_apply (M := 512) (K := 256) (N := 256) A B p j

/-- The same when row p of the block is the row vector `g` and the matrix is given by its entries: `g` times the matrix. -/
private theorem prod_row (A : FVec Ideal S512x256 .bf16) (M : Fin 256 → Fin 256 → EReal) (p : Fin 512)
    (g : Fin 256 → EReal) (hA : ∀ k : Fin 256, A (ix2 p k) = g k) (j : Fin 256) :
    matmul (F := Ideal) (φ₂ := .bf16) dot_S512x256_S256x256_S512x256_1_0_0_1_n_n none A (arrOfMat M)
        (constant S512x256 .f32 0x00000000#32) (ix2 p j) = mv g M j := by
  refine (prod_at A (arrOfMat M) p j).trans ?_
  exact Finset.sum_congr rfl fun k _ => by rw [hA k]; rfl

/-- The same with the matrix first cast to its own shape, as the body loads it. -/
private theorem prod_row_cast (A : FVec Ideal S512x256 .bf16) (M : Fin 256 → Fin 256 → EReal) (p : Fin 512)
    (g : Fin 256 → EReal) (hA : ∀ k : Fin 256, A (ix2 p k) = g k) (j : Fin 256) :
    matmul (F := Ideal) (φ₂ := .bf16) dot_S512x256_S256x256_S512x256_1_0_0_1_n_n none A
        (shapeCast S256x256 (arrOfMat M) shapeCasts_S256x256_S256x256)
        (constant S512x256 .f32 0x00000000#32) (ix2 p j) = mv g M j := by
  rw [shapeCast_self]
  exact prod_row A M p g hA j

/-! ## The softmax along the rows of a block -/

/-- A vector of 512 entries given a unit second axis and then spread over 256 columns reads, at (p, j), its entry p. -/
private theorem keep_at {α : Type} (w : S512.Idx → α) (p : Fin 512) (j : Fin 256) :
    broadcastTo S512x256 (shapeCast S512x1 w shapeCasts_S512_S512x1) broadcasts_S512x1_S512x256 (ix2 p j) = w (ix1 p) := by
  refine (broadcastTo_apply _ broadcasts_S512x1_S512x256 (ix2 p j) (ix2 p (0 : Fin 1)) fun a => ?_).trans ?_
  · match a with
    | ⟨0, _⟩ => rfl
    | ⟨1, _⟩ => rfl
  · exact shapeCast_apply w shapeCasts_S512_S512x1 _ (ix1 p) (by
      rw [Shape.rowMajor_val_one, Shape.rowMajor_val_two]
      show p.val = p.val * 1 + 0
      omega)

/-- The index over `p` with column `k` put back is (p, k). -/
private theorem lift_at (p : Fin 512) (k : Fin 256) : reduces_S512x256_S512.lift (ix1 p) k = ix2 p k :=
  funext fun c => Fin.ext <| match c with
    | ⟨0, _⟩ => rfl
    | ⟨1, _⟩ => rfl

/-- The row maximum the body takes (a fold of max from minus infinity along the row, then one more max with minus
    infinity) is the specification's, when row p of the block is `g`. -/
private theorem rowmax_at (v : FVec Ideal S512x256 .f32) (p : Fin 512) (g : Fin 256 → EReal)
    (hv : ∀ k : Fin 256, v (ix2 p k) = g k) :
    maximumf (broadcast S512 (Scalar.ofBits (F := Ideal) .f32 0xFF800000#32))
        (multiReduction .maximumf [1] S512 v 0xFF800000#32 reduces_S512x256_S512 (.inl rfl) rfl) (ix1 p) = rowMax g := by
  show max (Ideal.ofBits .f32 0xFF800000#32) _ = max negInf _
  refine congrArg (max _) ?_
  refine (Ideal.multiReduction_maximumf_single v _ reduces_S512x256_S512 (.inl rfl) rfl (ix1 p)).trans ?_
  show (Finset.univ : Finset (Fin 256)).fold max negInf (fun k => v (reduces_S512x256_S512.lift (ix1 p) k)) = _
  exact Finset.fold_congr fun k _ => (congrArg v (lift_at p k)).trans (hv k)

/-- The row sum the body takes is the sum over the row's 256 columns. -/
private theorem rowsum_at (u : FVec Ideal S512x256 .f32) (p : Fin 512) :
    multiReduction .add [1] S512 u 0x00000000#32 reduces_S512x256_S512 (.inl rfl) rfl (ix1 p) = ∑ k : Fin 256, u (ix2 p k) := by
  refine (Ideal.multiReduction_add_single u _ reduces_S512x256_S512 (.inl rfl) rfl (ix1 p)).trans ?_
  show ∑ k : Fin 256, u (reduces_S512x256_S512.lift (ix1 p) k) = _
  exact Finset.sum_congr rfl fun k _ => congrArg u (lift_at p k)

/-- The softmax along the rows of a 512×256 block as the body spells it: subtract the row maximum, exponentiate,
    divide by the row's sum. -/
private def sm (v : FVec Ideal S512x256 .f32) : FVec Ideal S512x256 .f32 :=
  divf
    (exp (subf v (broadcastTo S512x256 (shapeCast S512x1
      (maximumf (broadcast S512 (Scalar.ofBits (F := Ideal) .f32 0xFF800000#32))
        (multiReduction .maximumf [1] S512 v 0xFF800000#32 reduces_S512x256_S512 (.inl rfl) rfl))
      shapeCasts_S512_S512x1) broadcasts_S512x1_S512x256)))
    (broadcastTo S512x256 (shapeCast S512x1
      (multiReduction .add [1] S512
        (exp (subf v (broadcastTo S512x256 (shapeCast S512x1
          (maximumf (broadcast S512 (Scalar.ofBits (F := Ideal) .f32 0xFF800000#32))
            (multiReduction .maximumf [1] S512 v 0xFF800000#32 reduces_S512x256_S512 (.inl rfl) rfl))
          shapeCasts_S512_S512x1) broadcasts_S512x1_S512x256)))
        0x00000000#32 reduces_S512x256_S512 (.inl rfl) rfl)
      shapeCasts_S512_S512x1) broadcasts_S512x1_S512x256)

/-- The exponential of an entry of row p less the row's maximum. -/
private theorem expsub_at (v : FVec Ideal S512x256 .f32) (p : Fin 512) (g : Fin 256 → EReal)
    (hv : ∀ k : Fin 256, v (ix2 p k) = g k) (j : Fin 256) :
    exp (subf v (broadcastTo S512x256 (shapeCast S512x1
      (maximumf (broadcast S512 (Scalar.ofBits (F := Ideal) .f32 0xFF800000#32))
        (multiReduction .maximumf [1] S512 v 0xFF800000#32 reduces_S512x256_S512 (.inl rfl) rfl))
      shapeCasts_S512_S512x1) broadcasts_S512x1_S512x256)) (ix2 p j) = Ideal.exp (g j - rowMax g) := by
  show Ideal.exp (v (ix2 p j) - _) = _
  rw [keep_at, rowmax_at v p g hv, hv j]

/-- The body's softmax at (p, j) is the softmax of row p at j. -/
private theorem sm_at (v : FVec Ideal S512x256 .f32) (p : Fin 512) (g : Fin 256 → EReal)
    (hv : ∀ k : Fin 256, v (ix2 p k) = g k) (j : Fin 256) : sm v (ix2 p j) = att g j := by
  unfold sm att
  show Ideal.div _ _ = _
  rw [expsub_at v p g hv j, keep_at, rowsum_at]
  exact congrArg _ (Finset.sum_congr rfl fun k _ => expsub_at v p g hv k)

/-! ## The payloads -/

/-- The softmax gate of the first embedding at (p, j). -/
theorem pay6_at (P : Params) (x0 : Vec Ideal S512x4000 .f32) (p : Fin 512) (j : Fin 256) :
    k0_pay6 (F := Ideal) x0 (comb P) (arrOfMat P.A5) (arrOfMat P.A6) (arrOfMat P.A7) (ix2 p j)
      = att (g12 P (rowOf x0 p)) j := by
  -- row p of the two embeddings, as the products read them
  have h4 : ∀ k : Fin 256, k0_pay4 (F := Ideal) x0 (comb P) (ix2 p k) = emb1 P (rowOf x0 p) k := fun k => by
    rw [pay4_eq]; exact pay2_at P x0 p k
  have h5 : ∀ k : Fin 256, k0_pay5 (F := Ideal) x0 (comb P) (ix2 p k) = emb2 P (rowOf x0 p) k := fun k => by
    rw [pay5_eq]; exact pay3_at P x0 p k
  unfold k0_pay6
  refine sm_at _ p (g12 P (rowOf x0 p)) (fun k => ?_) j
  -- the logits at (p, k): tanh (e1·A5 + e2·A6) · (e2·A7)
  show Ideal.tanh (_ + _) * _ = _
  rw [prod_row_cast _ P.A5 p _ h4 k, prod_row_cast _ P.A6 p _ h5 k, prod_row_cast _ P.A7 p _ h5 k]
  rfl

/-- The second embedding projected by `A8` at (p, j). -/
theorem pay7_at (P : Params) (x0 : Vec Ideal S512x4000 .f32) (p : Fin 512) (j : Fin 256) :
    k0_pay7 (F := Ideal) x0 (comb P) (arrOfMat P.A8) (ix2 p j) = mv (emb2 P (rowOf x0 p)) P.A8 j := by
  have h5 : ∀ k : Fin 256, k0_pay5 (F := Ideal) x0 (comb P) (ix2 p k) = emb2 P (rowOf x0 p) k := fun k => by
    rw [pay5_eq]; exact pay3_at P x0 p k
  unfold k0_pay7
  exact prod_row_cast _ P.A8 p _ h5 j

/-- A cast of a matrix to its own shape changes nothing. -/
theorem pay8_eq (x8 : Vec Ideal S256x256 .bf16) : k0_pay8 (F := Ideal) x8 = x8 := by
  unfold k0_pay8
  exact shapeCast_self _ _

/-- The two gated embeddings joined side by side, at (p, j), from what the earlier pieces hold in row `p`. -/
theorem pay9_at (P : Params) (xr : Fin 4000 → EReal) (p : Fin 512)
    (v5 v6 : FVec Ideal S512x256 .f32) (v7 : FVec Ideal S512x256 .bf16) (v31 v34 : FVec Ideal S512x256 .f32)
    (h5 : ∀ j : Fin 256, v5 (ix2 p j) = emb1 P xr j) (h6 : ∀ j : Fin 256, v6 (ix2 p j) = emb2 P xr j)
    (h7 : ∀ j : Fin 256, v7 (ix2 p j) = emb1 P xr j) (h31 : ∀ j : Fin 256, v31 (ix2 p j) = att (g12 P xr) j)
    (h34 : ∀ j : Fin 256, v34 (ix2 p j) = mv (emb2 P xr) P.A8 j) (j : Fin 512) :
    k0_pay9 (F := Ideal) v5 v6 v7 v31 v34 (arrOfMat P.A9) (arrOfMat P.A10) (ix2 p j) = xc P xr j := by
  -- the second gate's logits at (p, k): tanh (e2·A8 + e1·A9) · (e1·A10)
  have hg : ∀ k : Fin 256,
      mulf (tanh (addf v34 (matmul (F := Ideal) (φ₂ := .bf16) dot_S512x256_S256x256_S512x256_1_0_0_1_n_n none v7 (arrOfMat P.A9)
          (constant S512x256 .f32 0x00000000#32))))
        (matmul (F := Ideal) (φ₂ := .bf16) dot_S512x256_S256x256_S512x256_1_0_0_1_n_n none v7
          (shapeCast S256x256 (arrOfMat P.A10) shapeCasts_S256x256_S256x256) (constant S512x256 .f32 0x00000000#32)) (ix2 p k)
        = g21 P xr k := fun k => by
    show Ideal.tanh (v34 (ix2 p k) + _) * _ = _
    rw [h34 k, prod_row v7 P.A9 p _ h7 k, prod_row_cast v7 P.A10 p _ h7 k]
    rfl
  have hj512 : j.val < 512 := j.isLt
  unfold k0_pay9 xc
  by_cases hj : j.val < 256
  · rw [dif_pos hj]
    refine (Cert.Lib.LayoutAt.sideBySide_left _ _ concatenates_S512x256_S512x256_S512x512_d1 p j hj).trans ?_
    show v5 (ix2 p ⟨j.val, hj⟩) * v31 (ix2 p ⟨j.val, hj⟩) = _
    rw [h5, h31]
  · rw [dif_neg hj]
    refine (Cert.Lib.LayoutAt.sideBySide_right _ _ concatenates_S512x256_S512x256_S512x512_d1 p j (by omega) (by omega)).trans ?_
    refine congrArg₂ (· * ·) (h6 _) ?_
    exact sm_at _ p _ hg _

end Cert.KernelIdeal.Pay

end
-- ==== Proof.KerCro.lean ====
/-
  The kernel's cross-history branch, read at an entry of a 512-row block.
-/
import proofs.«408809_j19172734009720_3_alg».proof.Proof.Gen.KernelIdeal.Skeleton
import proofs.«408809_j19172734009720_3_alg».proof.Proof.Whole
import proofs.«408809_j19172734009720_3_alg».proof.Proof.LibPlainProduct
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.Spec
open Idealize.ShloMosaic Idealize.ShloMosaic.TcCoe Idealize.ShloMosaic.ValueIdx

/-- A 512×512 by 512×512 product into the zero array, at (p, j): the sum over the contracted coordinate. -/
private theorem prod512 (A B : FVec Ideal S512x512 .bf16) (p j : Fin 512) :
    matmul (F := Ideal) dot_S512x512_S512x512_S512x512_1_0_0_1_n_n none A B
        (constant S512x512 .f32 0x00000000#32) (ix2 p j)
      = ∑ k : Fin 512, A (ix2 p k) * B (ix2 k j) :=
  Cert.Lib.PlainProduct.matmul_zero_plain_apply A B p j

/-- A one-row array repeated down 512 rows, at (p, j): the row's entry j. -/
private theorem biasRow512 (c : Fin 512 → EReal) (p j : Fin 512) :
    broadcastTo S512x512 (rowArr c) broadcasts_S1x512_S512x512 (ix2 p j) = c j :=
  broadcastTo_1b_ab_apply (rowArr c) broadcasts_S1x512_S512x512 p j

/-- The decomposed cross-history of row `p` projected by `CW`, at (p, j). -/
theorem pay10_at (P : Params) (x2 : Vec Ideal S512x512 .f32) (p : Fin 512) (j : Fin 512) :
    k0_pay10 (F := Ideal) x2 (arrOfMat P.CDW) (rowArr P.cdb) (arrOfMat P.CW) (ix2 p j)
      = mv (cro P (rowOf x2 p)) P.CW j := by
  unfold k0_pay10
  refine (prod512 _ _ p j).trans ?_
  refine Finset.sum_congr rfl fun k _ => ?_
  simp only [shapeCast_self]
  show Ideal.tanh (_ + _) * P.CW k j = Ideal.tanh (mv (rowOf x2 p) P.CDW k + P.cdb k) * P.CW k j
  refine congrArg (· * P.CW k j) (congrArg Ideal.tanh ?_)
  refine congrArg₂ (· + ·) ?_ (biasRow512 P.cdb p k)
  exact prod512 _ _ p k

/-- The bias row repeated down the block, at (p, j). -/
theorem pay11_at (P : Params) (p : Fin 512) (j : Fin 512) :
    k0_pay11 (F := Ideal) (rowArr P.cb) (ix2 p j) = P.cb j := by
  show broadcastTo S512x512 (shapeCast S1x512 (rowArr P.cb) shapeCasts_S1x512_S1x512)
    broadcasts_S1x512_S512x512 (ix2 p j) = P.cb j
  rw [shapeCast_self]
  exact biasRow512 P.cb p j

end Cert.KernelIdeal.Pay

end
-- ==== Proof.KerGru.lean ====
/-
  The kernel's GRU step and its new cross-history, read at an entry of a 512-row block, from what the earlier
  pieces hold in row `p`.
-/
import proofs.«408809_j19172734009720_3_alg».proof.Proof.Gen.KernelIdeal.Skeleton
import proofs.«408809_j19172734009720_3_alg».proof.Proof.Whole
import proofs.«408809_j19172734009720_3_alg».proof.Proof.LibPlainProduct
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.Spec
open Idealize.ShloMosaic Idealize.ShloMosaic.TcCoe Idealize.ShloMosaic.ValueIdx

/-! ## Products, bias rows and column slices at an entry -/

/-- A 512×512 by 512×512 product into the zero array, at (p, j): the sum over the contracted coordinate. -/
private theorem gprod512 (A B : FVec Ideal S512x512 .bf16) (p j : Fin 512) :
    matmul (F := Ideal) dot_S512x512_S512x512_S512x512_1_0_0_1_n_n none A B
        (constant S512x512 .f32 0x00000000#32) (ix2 p j)
      = ∑ k : Fin 512, A (ix2 p k) * B (ix2 k j) :=
  Cert.Lib.PlainProduct.matmul_zero_plain_apply A B p j

/-- A 512×512 by 512×1536 product into the zero array, at (p, j). -/
private theorem gprod1536 (A : FVec Ideal S512x512 .bf16) (B : FVec Ideal S512x1536 .bf16) (p : Fin 512)
    (j : Fin 1536) :
    matmul (F := Ideal) dot_S512x512_S512x1536_S512x1536_1_0_0_1_n_n none A B
        (constant S512x1536 .f32 0x00000000#32) (ix2 p j)
      = ∑ k : Fin 512, A (ix2 p k) * B (ix2 k j) :=
  Cert.Lib.PlainProduct.matmul_zero_plain_apply A B p j

/-- A 512×512 by 512×1024 product into the zero array, at (p, j). -/
private theorem gprod1024 (A : FVec Ideal S512x512 .bf16) (B : FVec Ideal S512x1024 .bf16) (p : Fin 512)
    (j : Fin 1024) :
    matmul (F := Ideal) dot_S512x512_S512x1024_S512x1024_1_0_0_1_n_n none A B
        (constant S512x1024 .f32 0x00000000#32) (ix2 p j)
      = ∑ k : Fin 512, A (ix2 p k) * B (ix2 k j) :=
  Cert.Lib.PlainProduct.matmul_zero_plain_apply A B p j

/-- A one-row array of 1536 entries repeated down 512 rows, at (p, j): the row's entry j. -/
private theorem biasRow1536 (c : Fin 1536 → EReal) (p : Fin 512) (j : Fin 1536) :
    broadcastTo S512x1536 (rowArr c) broadcasts_S1x1536_S512x1536 (ix2 p j) = c j :=
  broadcastTo_1b_ab_apply (rowArr c) broadcasts_S1x1536_S512x1536 p j

/-- The first `w` columns of a matrix, at (p, j): the matrix at (p, j). -/
private theorem colUp {α : Type} {R W w : Nat} (x : (⟨2, ![R, W]⟩ : Shape).Idx → α)
    (h : (⟨2, ![R, W]⟩ : Shape).Slices ![0, 0] ⟨2, ![R, w]⟩) (p : Fin R) (j : Fin w) (hle : w ≤ W) :
    extractStridedSlice ⟨2, ![R, w]⟩ ![0, 0] x h (ix2 p j) = x (ix2 p (up hle j)) :=
  extractStridedSlice_apply _ x h _ _ (fun a => match a with
    | ⟨0, _⟩ => by show p.val = 0 + p.val; omega
    | ⟨1, _⟩ => by show j.val = 0 + j.val; omega)

/-- Columns `o` … `o + w − 1` of a matrix, at (p, j): the matrix at (p, o + j). -/
private theorem colOff {α : Type} {R W w : Nat} (o : Nat) (x : (⟨2, ![R, W]⟩ : Shape).Idx → α)
    (h : (⟨2, ![R, W]⟩ : Shape).Slices ![0, o] ⟨2, ![R, w]⟩) (p : Fin R) (j : Fin w) (hle : o + w ≤ W) :
    extractStridedSlice ⟨2, ![R, w]⟩ ![0, o] x h (ix2 p j) = x (ix2 p (off o hle j)) :=
  extractStridedSlice_apply _ x h _ _ (fun a => match a with
    | ⟨0, _⟩ => by show p.val = 0 + p.val; omega
    | ⟨1, _⟩ => rfl)

/-! ## The stages of the step in row `p` -/

section Stages

variable (P : Params) (xr : Fin 4000 → EReal) (hr cr : Fin 512 → EReal) (p : Fin 512)

/-- The hidden state the step starts from: the previous one plus the projected cross-history. -/
private theorem hp_at (v68 : Vec Ideal S512x512 .f32) (v72 v75 : FVec Ideal S512x512 .f32)
    (h68 : ∀ j : Fin 512, v68 (ix2 p j) = hr j)
    (h72 : ∀ j : Fin 512, v72 (ix2 p j) = mv (cro P cr) P.CW j) (h75 : ∀ j : Fin 512, v75 (ix2 p j) = P.cb j)
    (j : Fin 512) :
    addf (F := Ideal) v68 (tanh (addf v72 v75)) (ix2 p j) = hp P hr cr j := by
  show v68 (ix2 p j) + Ideal.tanh (v72 (ix2 p j) + v75 (ix2 p j))
    = hr j + Ideal.tanh (mv (cro P cr) P.CW j + P.cb j)
  rw [h68, h72, h75]

/-- The input's contribution to the three gates. -/
private theorem mx_at (v57 : FVec Ideal S512x512 .f32) (h57 : ∀ j : Fin 512, v57 (ix2 p j) = xc P xr j)
    (j : Fin 1536) :
    addf (F := Ideal)
        (matmul dot_S512x512_S512x1536_S512x1536_1_0_0_1_n_n none (truncf .bf16 v57 bitsLt_bf16_f32)
          (shapeCast S512x1536 (arrOfMat P.KM) shapeCasts_S512x1536_S512x1536 : FVec Ideal S512x1536 .bf16)
          (constant S512x1536 .f32 0x00000000#32))
        (broadcastTo S512x1536 (shapeCast S1x1536 (rowArr P.bv) shapeCasts_S1x1536_S1x1536)
          broadcasts_S1x1536_S512x1536) (ix2 p j)
      = mx P xr j := by
  simp only [shapeCast_self]
  show _ + _ = mv (xc P xr) P.KM j + P.bv j
  refine congrArg₂ (· + ·) ((gprod1536 _ _ p j).trans ?_) (biasRow1536 P.bv p j)
  refine Finset.sum_congr rfl fun k _ => ?_
  show v57 (ix2 p k) * P.KM k j = xc P xr k * P.KM k j
  rw [h57]

/-- The hidden state's contribution to the update and reset gates. -/
private theorem mi_at (v78 : FVec Ideal S512x512 .f32) (h78 : ∀ j : Fin 512, v78 (ix2 p j) = hp P hr cr j)
    (j : Fin 1024) :
    matmul (F := Ideal) dot_S512x512_S512x1024_S512x1024_1_0_0_1_n_n none (truncf .bf16 v78 bitsLt_bf16_f32)
        (extractStridedSlice S512x1024 ![0, 0]
          (shapeCast S512x1536 (arrOfMat P.RK) shapeCasts_S512x1536_S512x1536 : FVec Ideal S512x1536 .bf16) slices_S512x1536_o0_0_S512x1024)
        (constant S512x1024 .f32 0x00000000#32) (ix2 p j)
      = mi P hr cr j := by
  simp only [shapeCast_self]
  refine (gprod1024 _ _ p j).trans ?_
  show _ = ∑ k : Fin 512, hp P hr cr k * P.RK k (up (by decide) j)
  refine Finset.sum_congr rfl fun k _ => ?_
  show v78 (ix2 p k) * _ = hp P hr cr k * P.RK k (up (by decide) j)
  exact congrArg₂ (· * ·) (h78 k) (colUp (arrOfMat P.RK) _ k j (by decide))

/-- The update gate. -/
private theorem zg_at (v86 : FVec Ideal S512x1536 .f32) (v94 : FVec Ideal S512x1024 .f32)
    (h86 : ∀ j : Fin 1536, v86 (ix2 p j) = mx P xr j) (h94 : ∀ j : Fin 1024, v94 (ix2 p j) = mi P hr cr j)
    (j : Fin 512) :
    logistic (F := Ideal)
        (addf (extractStridedSlice S512x512 ![0, 0] v86 slices_S512x1536_o0_0_S512x512)
          (extractStridedSlice S512x512 ![0, 0] v94 slices_S512x1024_o0_0_S512x512)) (ix2 p j)
      = zg P xr hr cr j := by
  show Ideal.logistic (_ + _) = Ideal.logistic (mx P xr (up (by decide) j) + mi P hr cr (up (by decide) j))
  exact congrArg Ideal.logistic (congrArg₂ (· + ·)
    ((colUp v86 _ p j (by decide)).trans (h86 _)) ((colUp v94 _ p j (by decide)).trans (h94 _)))

/-- The reset gate. -/
private theorem rg_at (v86 : FVec Ideal S512x1536 .f32) (v94 : FVec Ideal S512x1024 .f32)
    (h86 : ∀ j : Fin 1536, v86 (ix2 p j) = mx P xr j) (h94 : ∀ j : Fin 1024, v94 (ix2 p j) = mi P hr cr j)
    (j : Fin 512) :
    logistic (F := Ideal)
        (addf (extractStridedSlice S512x512 ![0, 512] v86 slices_S512x1536_o0_512_S512x512)
          (extractStridedSlice S512x512 ![0, 512] v94 slices_S512x1024_o0_512_S512x512)) (ix2 p j)
      = rg P xr hr cr j := by
  show Ideal.logistic (_ + _)
    = Ideal.logistic (mx P xr (off 512 (by decide) j) + mi P hr cr (off 512 (by decide) j))
  exact congrArg Ideal.logistic (congrArg₂ (· + ·)
    ((colOff 512 v86 _ p j (by decide)).trans (h86 _)) ((colOff 512 v94 _ p j (by decide)).trans (h94 _)))

/-- The candidate state. -/
private theorem hh_at (v86 : FVec Ideal S512x1536 .f32) (v100 v78 : FVec Ideal S512x512 .f32)
    (h86 : ∀ j : Fin 1536, v86 (ix2 p j) = mx P xr j) (h100 : ∀ j : Fin 512, v100 (ix2 p j) = rg P xr hr cr j)
    (h78 : ∀ j : Fin 512, v78 (ix2 p j) = hp P hr cr j) (j : Fin 512) :
    tanh (F := Ideal)
        (addf (extractStridedSlice S512x512 ![0, 1024] v86 slices_S512x1536_o0_1024_S512x512)
          (matmul dot_S512x512_S512x512_S512x512_1_0_0_1_n_n none
            (truncf .bf16 (mulf v100 v78) bitsLt_bf16_f32)
            (extractStridedSlice S512x512 ![0, 1024]
              (shapeCast S512x1536 (arrOfMat P.RK) shapeCasts_S512x1536_S512x1536 : FVec Ideal S512x1536 .bf16)
              slices_S512x1536_o0_1024_S512x512)
            (constant S512x512 .f32 0x00000000#32))) (ix2 p j)
      = hh P xr hr cr j := by
  simp only [shapeCast_self]
  show Ideal.tanh (_ + _)
    = Ideal.tanh (mx P xr (off 1024 (by decide) j)
        + mv (fun k => rg P xr hr cr k * hp P hr cr k) (fun k j' => P.RK k (off 1024 (by decide) j')) j)
  refine congrArg Ideal.tanh (congrArg₂ (· + ·) ((colOff 1024 v86 _ p j (by decide)).trans (h86 _)) ?_)
  refine (gprod512 _ _ p j).trans ?_
  refine Finset.sum_congr rfl fun k _ => ?_
  show (v100 (ix2 p k) * v78 (ix2 p k)) * _
    = (rg P xr hr cr k * hp P hr cr k) * P.RK k (off 1024 (by decide) j)
  exact congrArg₂ (· * ·) (congrArg₂ (· * ·) (h100 k) (h78 k))
    (colOff 1024 (arrOfMat P.RK) _ k j (by decide))

end Stages

/-- The new hidden state at (p, j). -/
theorem pay12_at (P : Params) (xr : Fin 4000 → EReal) (hr cr : Fin 512 → EReal) (p : Fin 512)
    (v57 : FVec Ideal S512x512 .f32) (v68 : Vec Ideal S512x512 .f32) (v72 v75 : FVec Ideal S512x512 .f32)
    (h57 : ∀ j : Fin 512, v57 (ix2 p j) = xc P xr j) (h68 : ∀ j : Fin 512, v68 (ix2 p j) = hr j)
    (h72 : ∀ j : Fin 512, v72 (ix2 p j) = mv (cro P cr) P.CW j) (h75 : ∀ j : Fin 512, v75 (ix2 p j) = P.cb j)
    (j : Fin 512) :
    k0_pay12 (F := Ideal) v57 v68 v72 v75 (arrOfMat P.KM) (rowArr P.bv) (arrOfMat P.RK) (ix2 p j)
      = hnew P xr hr cr j := by
  have e78 := hp_at P hr cr p v68 v72 v75 h68 h72 h75
  have e86 := mx_at P xr p v57 h57
  have e94 := mi_at P hr cr p _ e78
  have ezg := zg_at P xr hr cr p _ _ e86 e94
  have erg := rg_at P xr hr cr p _ _ e86 e94
  have ehh := hh_at P xr hr cr p _ _ _ e86 erg e78
  unfold k0_pay12
  show _ * _ + (Spec.one - _) * _
    = zg P xr hr cr j * hp P hr cr j + (Spec.one - zg P xr hr cr j) * hh P xr hr cr j
  exact congrArg₂ (· + ·) (congrArg₂ (· * ·) (ezg j) (e78 j))
    (congrArg₂ (· * ·) (congrArg (Spec.one - ·) (ezg j)) (ehh j))

/-- The new cross-history at (p, j). -/
theorem pay13_at (P : Params) (xr : Fin 4000 → EReal) (cr : Fin 512 → EReal) (p : Fin 512)
    (v57 : FVec Ideal S512x512 .f32) (v58 : Vec Ideal S512x512 .f32)
    (h57 : ∀ j : Fin 512, v57 (ix2 p j) = xc P xr j) (h58 : ∀ j : Fin 512, v58 (ix2 p j) = cr j) (j : Fin 512) :
    k0_pay13 (F := Ideal) v57 v58 (ix2 p j) = cnew P xr cr j := by
  show Spec.half * v58 (ix2 p j) + Spec.half * v57 (ix2 p j) = Spec.half * cr j + Spec.half * xc P xr j
  rw [h57, h58]

end Cert.KernelIdeal.Pay

end
-- ==== Proof.KerOut.lean ====
/-
  What the body leaves in the two output windows' buffers, at an entry of a 512-row block: the new hidden state and
  the new cross-history of the block's row, when the resident windows hold the weights.
-/
import proofs.«408809_j19172734009720_3_alg».proof.Proof.Gen.KernelIdeal.Frame
import proofs.«408809_j19172734009720_3_alg».proof.Proof.KerAtt
import proofs.«408809_j19172734009720_3_alg».proof.Proof.KerCro
import proofs.«408809_j19172734009720_3_alg».proof.Proof.KerGru

set_option maxRecDepth 16384

noncomputable section

namespace Cert.KernelIdeal.Pay

open Cert.KernelIdeal Cert.KernelIdeal.Gen Cert.Spec
open Idealize.ShloMosaic Idealize.ShloMosaic.TcCoe Idealize.ShloMosaic.ValueIdx

/-- The offset of a whole-buffer rectangle is zero on both axes. -/
theorem off_zero : (![0, 0] : Fin 2 → Nat) = fun _ => 0 := funext fun a => by fin_cases a <;> rfl

/-- The joined gated embeddings of row `p`, from the input block and the weights. -/
theorem xc_at (P : Params) (x0 : Vec Ideal S512x4000 .f32) (p : Fin 512) (j : Fin 512) :
    k0_pay9 (F := Ideal) (k0_pay2 x0 (comb P)) (k0_pay3 x0 (comb P)) (k0_pay4 x0 (comb P))
        (k0_pay6 x0 (comb P) (arrOfMat P.A5) (arrOfMat P.A6) (arrOfMat P.A7)) (k0_pay7 x0 (comb P) (arrOfMat P.A8))
        (arrOfMat P.A9) (arrOfMat P.A10) (ix2 p j)
      = xc P (rowOf x0 p) j :=
  pay9_at P (rowOf x0 p) p _ _ _ _ _ (fun j' => pay2_at P x0 p j') (fun j' => pay3_at P x0 p j')
    (fun j' => (congrFun (pay4_eq x0 (comb P)) (ix2 p j')).trans (pay2_at P x0 p j'))
    (fun j' => pay6_at P x0 p j') (fun j' => pay7_at P x0 p j') j

/-- The first output window's buffer after the body, at (p, j): the new hidden state of row `p`. -/
theorem out17_at (P : Params) (x0 : Vec Ideal S512x4000 .f32) (x1 x2 : Vec Ideal S512x512 .f32) (p j : Fin 512) :
    out0_17 (F := Ideal) x0 x1 x2 (comb P) (arrOfMat P.A5) (arrOfMat P.A6) (arrOfMat P.A7) (arrOfMat P.A8)
        (arrOfMat P.A9) (arrOfMat P.A10) (arrOfMat P.CW) (rowArr P.cb) (arrOfMat P.CDW) (rowArr P.cdb) (arrOfMat P.KM)
        (arrOfMat P.RK) (rowArr P.bv) (ix2 p j)
      = hnew P (rowOf x0 p) (rowOf x1 p) (rowOf x2 p) j := by
  unfold out0_17
  rw [View.canon_unit_zero off_zero]
  simp only [View.ld_unit_zero (S := S512x4000) off_zero, View.ld_unit_zero (S := S4000x512) off_zero,
    View.ld_unit_zero (S := S256x256) off_zero, View.ld_unit_zero (S := S512x512) off_zero,
    View.ld_unit_zero (S := S1x512) off_zero, View.ld_unit_zero (S := S512x1536) off_zero,
    View.ld_unit_zero (S := S1x1536) off_zero]
  rw [pay8_eq]
  exact pay12_at P (rowOf x0 p) (rowOf x1 p) (rowOf x2 p) p _ x1 _ _ (fun j' => xc_at P x0 p j') (fun _ => rfl)
    (fun j' => pay10_at P x2 p j') (fun j' => pay11_at P p j') j

/-- The second output window's buffer after the body, at (p, j): the new cross-history of row `p`. -/
theorem out18_at (P : Params) (x0 : Vec Ideal S512x4000 .f32) (x1 x2 : Vec Ideal S512x512 .f32) (p j : Fin 512) :
    out0_18 (F := Ideal) x0 x1 x2 (comb P) (arrOfMat P.A5) (arrOfMat P.A6) (arrOfMat P.A7) (arrOfMat P.A8)
        (arrOfMat P.A9) (arrOfMat P.A10) (arrOfMat P.CW) (rowArr P.cb) (arrOfMat P.CDW) (rowArr P.cdb) (arrOfMat P.KM)
        (arrOfMat P.RK) (rowArr P.bv) (ix2 p j)
      = cnew P (rowOf x0 p) (rowOf x2 p) j := by
  unfold out0_18
  rw [View.canon_unit_zero off_zero]
  simp only [View.ld_unit_zero (S := S512x4000) off_zero, View.ld_unit_zero (S := S4000x512) off_zero,
    View.ld_unit_zero (S := S256x256) off_zero, View.ld_unit_zero (S := S512x512) off_zero]
  rw [pay8_eq]
  exact pay13_at P (rowOf x0 p) (rowOf x2 p) p _ x2 (fun j' => xc_at P x0 p j') (fun _ => rfl) j

end Cert.KernelIdeal.Pay

end
-- ==== Proof.KerComb.lean ====
/-
  The block matrix the kernel's fourth window holds when the region is entered.

  Before the region the program joins the first embedding matrix with a zero block side by side, a zero block with
  the second embedding matrix side by side, stacks the two 2000×512 results and changes the float format (the
  identity on the extended reals): entry by entry that is `comb` of the weights.
-/
import proofs.«408809_j19172734009720_3_alg».proof.Proof.Gen.KernelIdeal.Frame
import proofs.«408809_j19172734009720_3_alg».proof.Proof.Whole
import proofs.«408809_j19172734009720_3_alg».proof.Proof.LibLayoutAt
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Host

open Cert.KernelIdeal Cert.KernelIdeal.Gen Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The weights read off the kernel's fifteen weight arguments on core `c`. -/
def kP (c : Dev nD) : Params :=
  paramsOf (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))

/-- Two matrices of C columns, one on top of the other, read in the UPPER part: the first matrix there. -/
private theorem stacked_top {α : Type} {A B R C : Nat} (x : (⟨2, ![A, C]⟩ : Shape).Idx → α) (y : (⟨2, ![B, C]⟩ : Shape).Idx → α)
    (h : Shape.Concatenates [⟨2, ![A, C]⟩, ⟨2, ![B, C]⟩] ⟨2, ![R, C]⟩ 0) (r : Fin R) (c : Fin C) (hr : r.val < A) :
    concatenate ⟨2, ![R, C]⟩ 0 [⟨⟨2, ![A, C]⟩, x⟩, ⟨⟨2, ![B, C]⟩, y⟩] h (ix2 r c) = x (ix2 ⟨r.val, hr⟩ c) :=
  concatenate_pair_apply_left 0 x y h (ix2 r c) rfl (ix2 ⟨r.val, hr⟩ c) (fun b => match b with
    | ⟨0, _⟩ => rfl
    | ⟨1, _⟩ => rfl)

/-- Two matrices of C columns, one on top of the other, read in the LOWER part: the second matrix, the first one's
    height less. -/
private theorem stacked_bottom {α : Type} {A B R C : Nat} (x : (⟨2, ![A, C]⟩ : Shape).Idx → α) (y : (⟨2, ![B, C]⟩ : Shape).Idx → α)
    (h : Shape.Concatenates [⟨2, ![A, C]⟩, ⟨2, ![B, C]⟩] ⟨2, ![R, C]⟩ 0) (r : Fin R) (c : Fin C) (hr : A ≤ r.val)
    (hB : r.val - A < B) :
    concatenate ⟨2, ![R, C]⟩ 0 [⟨⟨2, ![A, C]⟩, x⟩, ⟨⟨2, ![B, C]⟩, y⟩] h (ix2 r c) = y (ix2 ⟨r.val - A, hB⟩ c) :=
  concatenate_pair_apply_right 0 x y h (ix2 r c) rfl rfl (ix2 ⟨r.val - A, hB⟩ c)
    (fun b hb => match b, hb with
      | ⟨0, _⟩, hb => absurd rfl hb
      | ⟨1, _⟩, _ => rfl)
    (by show r.val - A + A = r.val; omega)

/-- The zero constant spread over a 2000×256 block is zero at every entry. -/
private theorem zero_block (i : S2000x256.Idx) :
    broadcastInDim S2000x256 ![] bcast_S_S2000x256 (constant (F := Ideal) S_ .f32 0x00000000#32) i = (0 : EReal) :=
  (broadcastInDim_apply _ bcast_S_S2000x256 (constant (F := Ideal) S_ .f32 0x00000000#32) i ix0 (fun a => a.elim0)).trans
    Ideal.ofBits_zero_f32

/-- The four blocks of the block matrix, at an entry given by its coordinates. -/
private theorem comb_ul (P : Params) (k : Fin 4000) (j : Fin 512) (hk : k.val < 2000) (hj : j.val < 256) :
    comb P (ix2 k j) = P.W1 ⟨k.val, hk⟩ ⟨j.val, hj⟩ := (dif_pos hk).trans (dif_pos hj)
private theorem comb_ur (P : Params) (k : Fin 4000) (j : Fin 512) (hk : k.val < 2000) (hj : ¬ j.val < 256) :
    comb P (ix2 k j) = 0 := (dif_pos hk).trans (dif_neg hj)
private theorem comb_ll (P : Params) (k : Fin 4000) (j : Fin 512) (hk : ¬ k.val < 2000) (hj : j.val < 256) :
    comb P (ix2 k j) = 0 := (dif_neg hk).trans (dif_pos hj)
private theorem comb_lr (P : Params) (k : Fin 4000) (j : Fin 512) (hk : ¬ k.val < 2000) (hj : ¬ j.val < 256)
    (hk' : k.val - 2000 < 2000) (hj' : j.val - 256 < 256) :
    comb P (ix2 k j) = P.W2 ⟨k.val - 2000, hk'⟩ ⟨j.val - 256, hj'⟩ := (dif_neg hk).trans (dif_neg hj)

/-- The window over `main_v5` holds the block matrix of the two embedding matrices. -/
theorem V_main_v5 (c : Dev nD) : (V (F := Ideal) m c main_v5 : S4000x512.Idx → EReal) = comb (kP m c) := by
  -- the buffer as the term the operations before the region build
  have e : (V (F := Ideal) m c main_v5 : S4000x512.Idx → EReal)
      = truncf (F := Ideal) .bf16
          (concatenate S4000x512 0
            [⟨S2000x512, concatenate S2000x512 1
                [⟨S2000x256, m ((c : Thread nD τ).loc main_arg3)⟩,
                 ⟨S2000x256, broadcastInDim S2000x256 ![] bcast_S_S2000x256 (constant (F := Ideal) S_ .f32 0x00000000#32)⟩]
                concatenates_S2000x256_S2000x256_S2000x512_d1⟩,
             ⟨S2000x512, concatenate S2000x512 1
                [⟨S2000x256, broadcastInDim S2000x256 ![] bcast_S_S2000x256 (constant (F := Ideal) S_ .f32 0x00000000#32)⟩,
                 ⟨S2000x256, m ((c : Thread nD τ).loc main_arg4)⟩]
                concatenates_S2000x256_S2000x256_S2000x512_d1⟩]
            concatenates_S2000x512_S2000x512_S4000x512_d0)
          bitsLt_bf16_f32 := by
    dsimp only [Gen.V, Gen.hostOps0]; after_results
  refine e.trans ?_
  funext i
  obtain ⟨k, j, rfl⟩ : ∃ (k : Fin 4000) (j : Fin 512), i = ix2 k j := ⟨i 0, i 1, eq_ix2 i⟩
  have hk4 := k.isLt
  have hj5 := j.isLt
  -- the change of format is the identity; read the stack, then the row of two blocks
  refine (truncf_apply _ bitsLt_bf16_f32 (ix2 k j)).trans ?_
  by_cases hk : k.val < 2000
  · refine (stacked_top _ _ concatenates_S2000x512_S2000x512_S4000x512_d0 k j hk).trans ?_
    by_cases hj : j.val < 256
    · refine (Cert.Lib.LayoutAt.sideBySide_left _ _ concatenates_S2000x256_S2000x256_S2000x512_d1 ⟨k.val, hk⟩ j hj).trans ?_
      exact (comb_ul (kP m c) k j hk hj).symm
    · refine (Cert.Lib.LayoutAt.sideBySide_right _ _ concatenates_S2000x256_S2000x256_S2000x512_d1 ⟨k.val, hk⟩ j
        (Nat.le_of_not_lt hj) (by omega)).trans ?_
      exact (zero_block _).trans (comb_ur (kP m c) k j hk hj).symm
  · refine (stacked_bottom _ _ concatenates_S2000x512_S2000x512_S4000x512_d0 k j (Nat.le_of_not_lt hk) (by omega)).trans ?_
    by_cases hj : j.val < 256
    · refine (Cert.Lib.LayoutAt.sideBySide_left _ _ concatenates_S2000x256_S2000x256_S2000x512_d1 ⟨k.val - 2000, by omega⟩ j hj).trans ?_
      exact (zero_block _).trans (comb_ll (kP m c) k j hk hj).symm
    · refine (Cert.Lib.LayoutAt.sideBySide_right _ _ concatenates_S2000x256_S2000x256_S2000x512_d1 ⟨k.val - 2000, by omega⟩ j
        (Nat.le_of_not_lt hj) (by omega)).trans ?_
      exact (comb_lr (kP m c) k j hk hj (by omega) (by omega)).symm

end Cert.KernelIdeal.Host

end
-- ==== Proof.KerHost.lean ====
/-
  What the kernel's resident windows hold when the region is entered.

  Before the region the program builds the 4000×512 block matrix out of the two embedding matrices and two zero
  blocks, changes the float format of ten weight matrices (the identity on the extended reals) and gives each of
  the three bias vectors a leading unit axis. So each resident window's array is, entry by entry, the weight it
  was made from: `comb`, `arrOfMat` or `rowArr` of the weights read off the arguments.
-/
import proofs.«408809_j19172734009720_3_alg».proof.Proof.KerComb
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Host

open Cert.KernelIdeal Cert.KernelIdeal.Gen Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ)

/-- A matrix is `arrOfMat` of its own entries. -/
theorem arrOfMat_matOf {K N : Nat} (a : Arr2 K N) : arrOfMat (matOf a) = a := by
  funext i
  exact congrArg a (eq_ix2 i).symm

/-- A vector given a leading unit axis is `rowArr` of its own entries. -/
theorem rowArr_vecOf {N : Nat} (a : Arr1 N) (h : (⟨1, ![N]⟩ : Shape).ShapeCasts ⟨2, ![1, N]⟩) :
    (shapeCast ⟨2, ![1, N]⟩ a h : Arr2 1 N) = rowArr (vecOf a) := by
  funext i
  obtain ⟨u, j, rfl⟩ : ∃ (u : Fin 1) (j : Fin N), i = ix2 u j := ⟨i 0, i 1, eq_ix2 i⟩
  exact shapeCast_a_1a_apply a h u j

/-- The window over `main_v6` holds the weight matrix `A5`. -/
theorem V_main_v6 (c : Dev nD) : (V (F := Ideal) m c main_v6 : S256x256.Idx → EReal) = arrOfMat (kP m c).A5 := by
  have e : (V (F := Ideal) m c main_v6 : S256x256.Idx → EReal) = m ((c : Thread nD τ).loc main_arg5) := by
    dsimp only [Gen.V, Gen.hostOps0]; after_results; rfl
  rw [e]; exact (arrOfMat_matOf _).symm

/-- The window over `main_v7` holds the weight matrix `A6`. -/
theorem V_main_v7 (c : Dev nD) : (V (F := Ideal) m c main_v7 : S256x256.Idx → EReal) = arrOfMat (kP m c).A6 := by
  have e : (V (F := Ideal) m c main_v7 : S256x256.Idx → EReal) = m ((c : Thread nD τ).loc main_arg6) := by
    dsimp only [Gen.V, Gen.hostOps0]; after_results; rfl
  rw [e]; exact (arrOfMat_matOf _).symm

/-- The window over `main_v8` holds the weight matrix `A7`. -/
theorem V_main_v8 (c : Dev nD) : (V (F := Ideal) m c main_v8 : S256x256.Idx → EReal) = arrOfMat (kP m c).A7 := by
  have e : (V (F := Ideal) m c main_v8 : S256x256.Idx → EReal) = m ((c : Thread nD τ).loc main_arg7) := by
    dsimp only [Gen.V, Gen.hostOps0]; after_results; rfl
  rw [e]; exact (arrOfMat_matOf _).symm

/-- The window over `main_v9` holds the weight matrix `A8`. -/
theorem V_main_v9 (c : Dev nD) : (V (F := Ideal) m c main_v9 : S256x256.Idx → EReal) = arrOfMat (kP m c).A8 := by
  have e : (V (F := Ideal) m c main_v9 : S256x256.Idx → EReal) = m ((c : Thread nD τ).loc main_arg8) := by
    dsimp only [Gen.V, Gen.hostOps0]; after_results; rfl
  rw [e]; exact (arrOfMat_matOf _).symm

/-- The window over `main_v10` holds the weight matrix `A9`. -/
theorem V_main_v10 (c : Dev nD) : (V (F := Ideal) m c main_v10 : S256x256.Idx → EReal) = arrOfMat (kP m c).A9 := by
  have e : (V (F := Ideal) m c main_v10 : S256x256.Idx → EReal) = m ((c : Thread nD τ).loc main_arg9) := by
    dsimp only [Gen.V, Gen.hostOps0]; after_results; rfl
  rw [e]; exact (arrOfMat_matOf _).symm

/-- The window over `main_v11` holds the weight matrix `A10`. -/
theorem V_main_v11 (c : Dev nD) : (V (F := Ideal) m c main_v11 : S256x256.Idx → EReal) = arrOfMat (kP m c).A10 := by
  have e : (V (F := Ideal) m c main_v11 : S256x256.Idx → EReal) = m ((c : Thread nD τ).loc main_arg10) := by
    dsimp only [Gen.V, Gen.hostOps0]; after_results; rfl
  rw [e]; exact (arrOfMat_matOf _).symm

/-- The window over `main_v12` holds the weight matrix `CW`. -/
theorem V_main_v12 (c : Dev nD) : (V (F := Ideal) m c main_v12 : S512x512.Idx → EReal) = arrOfMat (kP m c).CW := by
  have e : (V (F := Ideal) m c main_v12 : S512x512.Idx → EReal) = m ((c : Thread nD τ).loc main_arg11) := by
    dsimp only [Gen.V, Gen.hostOps0]; after_results; rfl
  rw [e]; exact (arrOfMat_matOf _).symm

/-- The window over `main_v13` holds the weight matrix `CDW`. -/
theorem V_main_v13 (c : Dev nD) : (V (F := Ideal) m c main_v13 : S512x512.Idx → EReal) = arrOfMat (kP m c).CDW := by
  have e : (V (F := Ideal) m c main_v13 : S512x512.Idx → EReal) = m ((c : Thread nD τ).loc main_arg13) := by
    dsimp only [Gen.V, Gen.hostOps0]; after_results; rfl
  rw [e]; exact (arrOfMat_matOf _).symm

/-- The window over `main_v14` holds the weight matrix `KM`. -/
theorem V_main_v14 (c : Dev nD) : (V (F := Ideal) m c main_v14 : S512x1536.Idx → EReal) = arrOfMat (kP m c).KM := by
  have e : (V (F := Ideal) m c main_v14 : S512x1536.Idx → EReal) = m ((c : Thread nD τ).loc main_arg15) := by
    dsimp only [Gen.V, Gen.hostOps0]; after_results; rfl
  rw [e]; exact (arrOfMat_matOf _).symm

/-- The window over `main_v15` holds the weight matrix `RK`. -/
theorem V_main_v15 (c : Dev nD) : (V (F := Ideal) m c main_v15 : S512x1536.Idx → EReal) = arrOfMat (kP m c).RK := by
  have e : (V (F := Ideal) m c main_v15 : S512x1536.Idx → EReal) = m ((c : Thread nD τ).loc main_arg16) := by
    dsimp only [Gen.V, Gen.hostOps0]; after_results; rfl
  rw [e]; exact (arrOfMat_matOf _).symm

/-- The window over `main_v16` holds the bias vector `cb` as one row. -/
theorem V_main_v16 (c : Dev nD) : (V (F := Ideal) m c main_v16 : S1x512.Idx → EReal) = rowArr (kP m c).cb := by
  have e : (V (F := Ideal) m c main_v16 : S1x512.Idx → EReal) = shapeCast S1x512 (m ((c : Thread nD τ).loc main_arg12)) shapeCasts_S512_S1x512 := by
    dsimp only [Gen.V, Gen.hostOps0]; after_results; rfl
  rw [e]; exact rowArr_vecOf _ _

/-- The window over `main_v17` holds the bias vector `cdb` as one row. -/
theorem V_main_v17 (c : Dev nD) : (V (F := Ideal) m c main_v17 : S1x512.Idx → EReal) = rowArr (kP m c).cdb := by
  have e : (V (F := Ideal) m c main_v17 : S1x512.Idx → EReal) = shapeCast S1x512 (m ((c : Thread nD τ).loc main_arg14)) shapeCasts_S512_S1x512 := by
    dsimp only [Gen.V, Gen.hostOps0]; after_results; rfl
  rw [e]; exact rowArr_vecOf _ _

/-- The window over `main_v18` holds the bias vector `bv` as one row. -/
theorem V_main_v18 (c : Dev nD) : (V (F := Ideal) m c main_v18 : S1x1536.Idx → EReal) = rowArr (kP m c).bv := by
  have e : (V (F := Ideal) m c main_v18 : S1x1536.Idx → EReal) = shapeCast S1x1536 (m ((c : Thread nD τ).loc main_arg17)) shapeCasts_S1536_S1x1536 := by
    dsimp only [Gen.V, Gen.hostOps0]; after_results; rfl
  rw [e]; exact rowArr_vecOf _ _

end Cert.KernelIdeal.Host

end
-- ==== Proof.KerFinal.lean ====
/-
  The kernel's two result arrays after its run, as the functions `Gh` and `Gc` of the arguments.

  The grid has eight points; point `t` works on rows 512·t … 512·t + 511 of the three batch arrays and writes the
  same rows of the two results, every weight window holding its whole array at every point. So what point `t`
  writes back is block `t` of `Gh` (of `Gc`), the eight blocks cover the 4096 rows, and the arrays end at those
  functions.
-/
import proofs.«408809_j19172734009720_3_alg».proof.Proof.Gen.KernelIdeal.Value
import proofs.«408809_j19172734009720_3_alg».proof.Proof.KerOut
import proofs.«408809_j19172734009720_3_alg».proof.Proof.KerHost

set_option maxRecDepth 16384

noncomputable section

namespace Cert.KernelIdeal.Final

open Cert.KernelIdeal Cert.KernelIdeal.Gen Cert.KernelIdeal.Host Cert.KernelIdeal.Pay Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the eight points -/

/-- The five batch windows sit at block (t, 0) at point `t`. -/
theorem idx_tiled : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0
    ∧ win0_18.index t (0 : Fin 2) = t.val ∧ win0_18.index t (1 : Fin 2) = 0
    ∧ t.val < 8 :=
  (by decide +kernel : ∀ t : Fin grid0.N, _)

/-- The fourteen weight windows sit at block (0, 0) at every point. -/
theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-- Every block row 0 … 7 is some point's. -/
theorem point_of_block : ∀ q : Fin 8, ∃ t : Fin cfg0.N, t.val = q.val :=
  (by decide +kernel : ∀ q : Fin 8, ∃ t : Fin grid0.N, t.val = q.val)

/-- Row `p` of point `t`'s block is row 512·t + p of the array. -/
def rowIx (t : Fin cfg0.N) (p : Fin 512) : Fin 4096 :=
  ⟨t.val * 512 + p.val, by have := (idx_tiled t).2.2.2.2.2.2.2.2.2.2; have := p.isLt; omega⟩

/-! ## The windows' blocks -/

/-- Window 0's block at point `t` is rows 512·t … 512·t + 511 of its argument. -/
theorem iblk0_at (c : Dev nD) (t : Fin cfg0.N) (p : Fin 512) (k : Fin 4000) :
    iblk m c 0 t (ix2 p k) = m ((c : Thread nD τ).loc main_arg0) (ix2 (rowIx t p) k) := by
  obtain ⟨a0, a1, b0, b1, c0, c1, d0, d1, f0, f1, ht⟩ := idx_tiled t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 4000 + 1 * k.val = k.val; omega

theorem row0 (c : Dev nD) (t : Fin cfg0.N) (p : Fin 512) :
    rowOf (iblk m c 0 t) p = rowOf (m ((c : Thread nD τ).loc main_arg0)) (rowIx t p) :=
  funext fun k => iblk0_at m c t p k

/-- Window 1's block at point `t` is rows 512·t … 512·t + 511 of its argument. -/
theorem iblk1_at (c : Dev nD) (t : Fin cfg0.N) (p : Fin 512) (k : Fin 512) :
    iblk m c 1 t (ix2 p k) = m ((c : Thread nD τ).loc main_arg1) (ix2 (rowIx t p) k) := by
  obtain ⟨a0, a1, b0, b1, c0, c1, d0, d1, f0, f1, ht⟩ := idx_tiled t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 512 + 1 * k.val = k.val; omega

theorem row1 (c : Dev nD) (t : Fin cfg0.N) (p : Fin 512) :
    rowOf (iblk m c 1 t) p = rowOf (m ((c : Thread nD τ).loc main_arg1)) (rowIx t p) :=
  funext fun k => iblk1_at m c t p k

/-- Window 2's block at point `t` is rows 512·t … 512·t + 511 of its argument. -/
theorem iblk2_at (c : Dev nD) (t : Fin cfg0.N) (p : Fin 512) (k : Fin 512) :
    iblk m c 2 t (ix2 p k) = m ((c : Thread nD τ).loc main_arg2) (ix2 (rowIx t p) k) := by
  obtain ⟨a0, a1, b0, b1, c0, c1, d0, d1, f0, f1, ht⟩ := idx_tiled t
  show V m c main_arg2 (((cfg0.win 2).blk t).view.emb (ix2 p k)) = _
  rw [V_main_arg2]
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 512 + 1 * k.val = k.val; omega

theorem row2 (c : Dev nD) (t : Fin cfg0.N) (p : Fin 512) :
    rowOf (iblk m c 2 t) p = rowOf (m ((c : Thread nD τ).loc main_arg2)) (rowIx t p) :=
  funext fun k => iblk2_at m c t p k

/-- Window 3 is resident: its block at every point is its whole array. -/
theorem iblk3_eq (c : Dev nD) (t : Fin cfg0.N) : (iblk m c 3 t : S4000x512.Idx → EReal) = comb (kP m c) := by
  obtain ⟨e0, e1⟩ := (idx_resident t).1
  funext y
  show V m c main_v5 (((cfg0.win 3).blk t).view.emb y) = _
  have he : ((cfg0.win 3).blk t).view.emb y = y := funext fun a => Fin.ext (by
    match a with
    | ⟨0, _⟩ => show win0_3.index t (0 : Fin 2) * 4000 + 1 * (y 0).val = (y 0).val; omega
    | ⟨1, _⟩ => show win0_3.index t (1 : Fin 2) * 512 + 1 * (y 1).val = (y 1).val; omega)
  rw [he]; exact congrFun (V_main_v5 m c) y

/-- Window 4 is resident: its block at every point is its whole array. -/
theorem iblk4_eq (c : Dev nD) (t : Fin cfg0.N) : (iblk m c 4 t : S256x256.Idx → EReal) = arrOfMat (kP m c).A5 := by
  obtain ⟨e0, e1⟩ := (idx_resident t).2.1
  funext y
  show V m c main_v6 (((cfg0.win 4).blk t).view.emb y) = _
  have he : ((cfg0.win 4).blk t).view.emb y = y := funext fun a => Fin.ext (by
    match a with
    | ⟨0, _⟩ => show win0_4.index t (0 : Fin 2) * 256 + 1 * (y 0).val = (y 0).val; omega
    | ⟨1, _⟩ => show win0_4.index t (1 : Fin 2) * 256 + 1 * (y 1).val = (y 1).val; omega)
  rw [he]; exact congrFun (V_main_v6 m c) y

/-- Window 5 is resident: its block at every point is its whole array. -/
theorem iblk5_eq (c : Dev nD) (t : Fin cfg0.N) : (iblk m c 5 t : S256x256.Idx → EReal) = arrOfMat (kP m c).A6 := by
  obtain ⟨e0, e1⟩ := (idx_resident t).2.2.1
  funext y
  show V m c main_v7 (((cfg0.win 5).blk t).view.emb y) = _
  have he : ((cfg0.win 5).blk t).view.emb y = y := funext fun a => Fin.ext (by
    match a with
    | ⟨0, _⟩ => show win0_5.index t (0 : Fin 2) * 256 + 1 * (y 0).val = (y 0).val; omega
    | ⟨1, _⟩ => show win0_5.index t (1 : Fin 2) * 256 + 1 * (y 1).val = (y 1).val; omega)
  rw [he]; exact congrFun (V_main_v7 m c) y

/-- Window 6 is resident: its block at every point is its whole array. -/
theorem iblk6_eq (c : Dev nD) (t : Fin cfg0.N) : (iblk m c 6 t : S256x256.Idx → EReal) = arrOfMat (kP m c).A7 := by
  obtain ⟨e0, e1⟩ := (idx_resident t).2.2.2.1
  funext y
  show V m c main_v8 (((cfg0.win 6).blk t).view.emb y) = _
  have he : ((cfg0.win 6).blk t).view.emb y = y := funext fun a => Fin.ext (by
    match a with
    | ⟨0, _⟩ => show win0_6.index t (0 : Fin 2) * 256 + 1 * (y 0).val = (y 0).val; omega
    | ⟨1, _⟩ => show win0_6.index t (1 : Fin 2) * 256 + 1 * (y 1).val = (y 1).val; omega)
  rw [he]; exact congrFun (V_main_v8 m c) y

/-- Window 7 is resident: its block at every point is its whole array. -/
theorem iblk7_eq (c : Dev nD) (t : Fin cfg0.N) : (iblk m c 7 t : S256x256.Idx → EReal) = arrOfMat (kP m c).A8 := by
  obtain ⟨e0, e1⟩ := (idx_resident t).2.2.2.2.1
  funext y
  show V m c main_v9 (((cfg0.win 7).blk t).view.emb y) = _
  have he : ((cfg0.win 7).blk t).view.emb y = y := funext fun a => Fin.ext (by
    match a with
    | ⟨0, _⟩ => show win0_7.index t (0 : Fin 2) * 256 + 1 * (y 0).val = (y 0).val; omega
    | ⟨1, _⟩ => show win0_7.index t (1 : Fin 2) * 256 + 1 * (y 1).val = (y 1).val; omega)
  rw [he]; exact congrFun (V_main_v9 m c) y

/-- Window 8 is resident: its block at every point is its whole array. -/
theorem iblk8_eq (c : Dev nD) (t : Fin cfg0.N) : (iblk m c 8 t : S256x256.Idx → EReal) = arrOfMat (kP m c).A9 := by
  obtain ⟨e0, e1⟩ := (idx_resident t).2.2.2.2.2.1
  funext y
  show V m c main_v10 (((cfg0.win 8).blk t).view.emb y) = _
  have he : ((cfg0.win 8).blk t).view.emb y = y := funext fun a => Fin.ext (by
    match a with
    | ⟨0, _⟩ => show win0_8.index t (0 : Fin 2) * 256 + 1 * (y 0).val = (y 0).val; omega
    | ⟨1, _⟩ => show win0_8.index t (1 : Fin 2) * 256 + 1 * (y 1).val = (y 1).val; omega)
  rw [he]; exact congrFun (V_main_v10 m c) y

/-- Window 9 is resident: its block at every point is its whole array. -/
theorem iblk9_eq (c : Dev nD) (t : Fin cfg0.N) : (iblk m c 9 t : S256x256.Idx → EReal) = arrOfMat (kP m c).A10 := by
  obtain ⟨e0, e1⟩ := (idx_resident t).2.2.2.2.2.2.1
  funext y
  show V m c main_v11 (((cfg0.win 9).blk t).view.emb y) = _
  have he : ((cfg0.win 9).blk t).view.emb y = y := funext fun a => Fin.ext (by
    match a with
    | ⟨0, _⟩ => show win0_9.index t (0 : Fin 2) * 256 + 1 * (y 0).val = (y 0).val; omega
    | ⟨1, _⟩ => show win0_9.index t (1 : Fin 2) * 256 + 1 * (y 1).val = (y 1).val; omega)
  rw [he]; exact congrFun (V_main_v11 m c) y

/-- Window 10 is resident: its block at every point is its whole array. -/
theorem iblk10_eq (c : Dev nD) (t : Fin cfg0.N) : (iblk m c 10 t : S512x512.Idx → EReal) = arrOfMat (kP m c).CW := by
  obtain ⟨e0, e1⟩ := (idx_resident t).2.2.2.2.2.2.2.1
  funext y
  show V m c main_v12 (((cfg0.win 10).blk t).view.emb y) = _
  have he : ((cfg0.win 10).blk t).view.emb y = y := funext fun a => Fin.ext (by
    match a with
    | ⟨0, _⟩ => show win0_10.index t (0 : Fin 2) * 512 + 1 * (y 0).val = (y 0).val; omega
    | ⟨1, _⟩ => show win0_10.index t (1 : Fin 2) * 512 + 1 * (y 1).val = (y 1).val; omega)
  rw [he]; exact congrFun (V_main_v12 m c) y

/-- Window 11 is resident: its block at every point is its whole array. -/
theorem iblk11_eq (c : Dev nD) (t : Fin cfg0.N) : (iblk m c 11 t : S1x512.Idx → EReal) = rowArr (kP m c).cb := by
  obtain ⟨e0, e1⟩ := (idx_resident t).2.2.2.2.2.2.2.2.1
  funext y
  show V m c main_v16 (((cfg0.win 11).blk t).view.emb y) = _
  have he : ((cfg0.win 11).blk t).view.emb y = y := funext fun a => Fin.ext (by
    match a with
    | ⟨0, _⟩ => show win0_11.index t (0 : Fin 2) * 1 + 1 * (y 0).val = (y 0).val; omega
    | ⟨1, _⟩ => show win0_11.index t (1 : Fin 2) * 512 + 1 * (y 1).val = (y 1).val; omega)
  rw [he]; exact congrFun (V_main_v16 m c) y

/-- Window 12 is resident: its block at every point is its whole array. -/
theorem iblk12_eq (c : Dev nD) (t : Fin cfg0.N) : (iblk m c 12 t : S512x512.Idx → EReal) = arrOfMat (kP m c).CDW := by
  obtain ⟨e0, e1⟩ := (idx_resident t).2.2.2.2.2.2.2.2.2.1
  funext y
  show V m c main_v13 (((cfg0.win 12).blk t).view.emb y) = _
  have he : ((cfg0.win 12).blk t).view.emb y = y := funext fun a => Fin.ext (by
    match a with
    | ⟨0, _⟩ => show win0_12.index t (0 : Fin 2) * 512 + 1 * (y 0).val = (y 0).val; omega
    | ⟨1, _⟩ => show win0_12.index t (1 : Fin 2) * 512 + 1 * (y 1).val = (y 1).val; omega)
  rw [he]; exact congrFun (V_main_v13 m c) y

/-- Window 13 is resident: its block at every point is its whole array. -/
theorem iblk13_eq (c : Dev nD) (t : Fin cfg0.N) : (iblk m c 13 t : S1x512.Idx → EReal) = rowArr (kP m c).cdb := by
  obtain ⟨e0, e1⟩ := (idx_resident t).2.2.2.2.2.2.2.2.2.2.1
  funext y
  show V m c main_v17 (((cfg0.win 13).blk t).view.emb y) = _
  have he : ((cfg0.win 13).blk t).view.emb y = y := funext fun a => Fin.ext (by
    match a with
    | ⟨0, _⟩ => show win0_13.index t (0 : Fin 2) * 1 + 1 * (y 0).val = (y 0).val; omega
    | ⟨1, _⟩ => show win0_13.index t (1 : Fin 2) * 512 + 1 * (y 1).val = (y 1).val; omega)
  rw [he]; exact congrFun (V_main_v17 m c) y

/-- Window 14 is resident: its block at every point is its whole array. -/
theorem iblk14_eq (c : Dev nD) (t : Fin cfg0.N) : (iblk m c 14 t : S512x1536.Idx → EReal) = arrOfMat (kP m c).KM := by
  obtain ⟨e0, e1⟩ := (idx_resident t).2.2.2.2.2.2.2.2.2.2.2.1
  funext y
  show V m c main_v14 (((cfg0.win 14).blk t).view.emb y) = _
  have he : ((cfg0.win 14).blk t).view.emb y = y := funext fun a => Fin.ext (by
    match a with
    | ⟨0, _⟩ => show win0_14.index t (0 : Fin 2) * 512 + 1 * (y 0).val = (y 0).val; omega
    | ⟨1, _⟩ => show win0_14.index t (1 : Fin 2) * 1536 + 1 * (y 1).val = (y 1).val; omega)
  rw [he]; exact congrFun (V_main_v14 m c) y

/-- Window 15 is resident: its block at every point is its whole array. -/
theorem iblk15_eq (c : Dev nD) (t : Fin cfg0.N) : (iblk m c 15 t : S512x1536.Idx → EReal) = arrOfMat (kP m c).RK := by
  obtain ⟨e0, e1⟩ := (idx_resident t).2.2.2.2.2.2.2.2.2.2.2.2.1
  funext y
  show V m c main_v15 (((cfg0.win 15).blk t).view.emb y) = _
  have he : ((cfg0.win 15).blk t).view.emb y = y := funext fun a => Fin.ext (by
    match a with
    | ⟨0, _⟩ => show win0_15.index t (0 : Fin 2) * 512 + 1 * (y 0).val = (y 0).val; omega
    | ⟨1, _⟩ => show win0_15.index t (1 : Fin 2) * 1536 + 1 * (y 1).val = (y 1).val; omega)
  rw [he]; exact congrFun (V_main_v15 m c) y

/-- Window 16 is resident: its block at every point is its whole array. -/
theorem iblk16_eq (c : Dev nD) (t : Fin cfg0.N) : (iblk m c 16 t : S1x1536.Idx → EReal) = rowArr (kP m c).bv := by
  obtain ⟨e0, e1⟩ := (idx_resident t).2.2.2.2.2.2.2.2.2.2.2.2.2
  funext y
  show V m c main_v18 (((cfg0.win 16).blk t).view.emb y) = _
  have he : ((cfg0.win 16).blk t).view.emb y = y := funext fun a => Fin.ext (by
    match a with
    | ⟨0, _⟩ => show win0_16.index t (0 : Fin 2) * 1 + 1 * (y 0).val = (y 0).val; omega
    | ⟨1, _⟩ => show win0_16.index t (1 : Fin 2) * 1536 + 1 * (y 1).val = (y 1).val; omega)
  rw [he]; exact congrFun (V_main_v18 m c) y

/-! ## The first result -/

/-- An index of the array is in point `t`'s block of window 17 iff each coordinate is in the block's range on its axis. -/
theorem mem_blk17 (t : Fin cfg0.N) (i : S4096x512.Idx) :
    i ∈ ((cfg0.win 17).blk t).view.set ↔ ∀ a : Fin 2, win0_17.index t a * S512x512.size a ≤ (i a).val ∧ (i a).val < win0_17.index t a * S512x512.size a + S512x512.size a := by
  show i ∈ ((View.whole main_v19_0).slice (win0_17.rect t)).set ↔ _
  rw [View.set_slice_whole, Rect.mem_set_unit]
  exact Iff.rfl

/-- Where block `t` of window 17 lies in its array. -/
theorem emb17 (t : Fin cfg0.N) (p j : Fin 512) :
    ((cfg0.win 17).blk t).view.emb (ix2 p j) = ix2 (rowIx t p) j := by
  obtain ⟨a0, a1, b0, b1, c0, c1, d0, d1, f0, f1, ht⟩ := idx_tiled t
  refine funext fun a => Fin.ext ?_
  match a with
  | ⟨0, _⟩ => show win0_17.index t (0 : Fin 2) * 512 + 1 * p.val = t.val * 512 + p.val; omega
  | ⟨1, _⟩ => show win0_17.index t (1 : Fin 2) * 512 + 1 * j.val = j.val; omega

/-- What point `t` writes back to window 17's array is block `t` of `Gh` of the arguments. -/
theorem flushed17_eq (c : Dev nD) (t : Fin cfg0.N) :
    (dats m 0 c).flushed 17 t = ((cfg0.win 17).blk t).view.read (Elt Ideal) (Gh (kP m c) (m ((c : Thread nD τ).loc main_arg0)) (m ((c : Thread nD τ).loc main_arg1)) (m ((c : Thread nD τ).loc main_arg2))) := by
  rw [Value.flushed17]
  rw [iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t]
  funext y
  obtain ⟨p, j, rfl⟩ : ∃ (p : Fin 512) (j : Fin 512), y = ix2 p j := ⟨y 0, y 1, eq_ix2 y⟩
  show out0_17 (iblk m c 0 t) (iblk m c 1 t) (iblk m c 2 t) (comb (kP m c)) (arrOfMat (kP m c).A5) (arrOfMat (kP m c).A6)
      (arrOfMat (kP m c).A7) (arrOfMat (kP m c).A8) (arrOfMat (kP m c).A9) (arrOfMat (kP m c).A10) (arrOfMat (kP m c).CW)
      (rowArr (kP m c).cb) (arrOfMat (kP m c).CDW) (rowArr (kP m c).cdb) (arrOfMat (kP m c).KM) (arrOfMat (kP m c).RK)
      (rowArr (kP m c).bv) (ix2 p j)
    = Gh (kP m c) (m ((c : Thread nD τ).loc main_arg0)) (m ((c : Thread nD τ).loc main_arg1)) (m ((c : Thread nD τ).loc main_arg2)) (((cfg0.win 17).blk t).view.emb (ix2 p j))
  rw [emb17 t p j]
  refine (out17_at (kP m c) (iblk m c 0 t) (iblk m c 1 t) (iblk m c 2 t) p j).trans ?_
  rw [row0 m c t p, row1 m c t p, row2 m c t p]
  rfl

/-- Every index of window 17's array lies in some point's block: row `r` in the block of point `r / 512`. -/
theorem cover17 (i : S4096x512.Idx) :
    ∃ t : Fin cfg0.N, (cfg0.win 17).flush t = true ∧ i ∈ ((cfg0.win 17).blk t).view.set := by
  have hi0 : (i 0).val < 4096 := (i 0).isLt
  have hi1 : (i 1).val < 512 := (i 1).isLt
  obtain ⟨t, ht⟩ := point_of_block ⟨(i 0).val / 512, by omega⟩
  obtain ⟨a0, a1, b0, b1, c0, c1, d0, d1, f0, f1, hlt⟩ := idx_tiled t
  have hq : t.val = (i 0).val / 512 := ht
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 512 ≤ (i 1).val ∧ (i 1).val < win0_17.index t (1 : Fin 2) * 512 + 512; omega

/-- So window 17's array ends holding `Gh` of the arguments. -/
theorem final17 (c : Dev nD) : (dats m 0 c).arrAt 17 cfg0.N = Gh (kP m c) (m ((c : Thread nD τ).loc main_arg0)) (m ((c : Thread nD τ).loc main_arg1)) (m ((c : Thread nD τ).loc main_arg2)) :=
  (dats m 0 c).arrAt_eq_of_cover 17 (Gh (kP m c) (m ((c : Thread nD τ).loc main_arg0)) (m ((c : Thread nD τ).loc main_arg1)) (m ((c : Thread nD τ).loc main_arg2))) (fun t _ => flushed17_eq m c t) cover17

/-! ## The second result -/

/-- An index of the array is in point `t`'s block of window 18 iff each coordinate is in the block's range on its axis. -/
theorem mem_blk18 (t : Fin cfg0.N) (i : S4096x512.Idx) :
    i ∈ ((cfg0.win 18).blk t).view.set ↔ ∀ a : Fin 2, win0_18.index t a * S512x512.size a ≤ (i a).val ∧ (i a).val < win0_18.index t a * S512x512.size a + S512x512.size a := by
  show i ∈ ((View.whole main_v19_1).slice (win0_18.rect t)).set ↔ _
  rw [View.set_slice_whole, Rect.mem_set_unit]
  exact Iff.rfl

/-- Where block `t` of window 18 lies in its array. -/
theorem emb18 (t : Fin cfg0.N) (p j : Fin 512) :
    ((cfg0.win 18).blk t).view.emb (ix2 p j) = ix2 (rowIx t p) j := by
  obtain ⟨a0, a1, b0, b1, c0, c1, d0, d1, f0, f1, ht⟩ := idx_tiled t
  refine funext fun a => Fin.ext ?_
  match a with
  | ⟨0, _⟩ => show win0_18.index t (0 : Fin 2) * 512 + 1 * p.val = t.val * 512 + p.val; omega
  | ⟨1, _⟩ => show win0_18.index t (1 : Fin 2) * 512 + 1 * j.val = j.val; omega

/-- What point `t` writes back to window 18's array is block `t` of `Gc` of the arguments. -/
theorem flushed18_eq (c : Dev nD) (t : Fin cfg0.N) :
    (dats m 0 c).flushed 18 t = ((cfg0.win 18).blk t).view.read (Elt Ideal) (Gc (kP m c) (m ((c : Thread nD τ).loc main_arg0)) (m ((c : Thread nD τ).loc main_arg2))) := by
  rw [Value.flushed18]
  rw [iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t]
  funext y
  obtain ⟨p, j, rfl⟩ : ∃ (p : Fin 512) (j : Fin 512), y = ix2 p j := ⟨y 0, y 1, eq_ix2 y⟩
  show out0_18 (iblk m c 0 t) (iblk m c 1 t) (iblk m c 2 t) (comb (kP m c)) (arrOfMat (kP m c).A5) (arrOfMat (kP m c).A6)
      (arrOfMat (kP m c).A7) (arrOfMat (kP m c).A8) (arrOfMat (kP m c).A9) (arrOfMat (kP m c).A10) (arrOfMat (kP m c).CW)
      (rowArr (kP m c).cb) (arrOfMat (kP m c).CDW) (rowArr (kP m c).cdb) (arrOfMat (kP m c).KM) (arrOfMat (kP m c).RK)
      (rowArr (kP m c).bv) (ix2 p j)
    = Gc (kP m c) (m ((c : Thread nD τ).loc main_arg0)) (m ((c : Thread nD τ).loc main_arg2)) (((cfg0.win 18).blk t).view.emb (ix2 p j))
  rw [emb18 t p j]
  refine (out18_at (kP m c) (iblk m c 0 t) (iblk m c 1 t) (iblk m c 2 t) p j).trans ?_
  rw [row0 m c t p, row2 m c t p]
  rfl

/-- Every index of window 18's array lies in some point's block: row `r` in the block of point `r / 512`. -/
theorem cover18 (i : S4096x512.Idx) :
    ∃ t : Fin cfg0.N, (cfg0.win 18).flush t = true ∧ i ∈ ((cfg0.win 18).blk t).view.set := by
  have hi0 : (i 0).val < 4096 := (i 0).isLt
  have hi1 : (i 1).val < 512 := (i 1).isLt
  obtain ⟨t, ht⟩ := point_of_block ⟨(i 0).val / 512, by omega⟩
  obtain ⟨a0, a1, b0, b1, c0, c1, d0, d1, f0, f1, hlt⟩ := idx_tiled t
  have hq : t.val = (i 0).val / 512 := ht
  refine ⟨t, flush0_18 t, ?_⟩
  rw [mem_blk18]
  intro a
  match a with
  | ⟨0, _⟩ => show win0_18.index t (0 : Fin 2) * 512 ≤ (i 0).val ∧ (i 0).val < win0_18.index t (0 : Fin 2) * 512 + 512; omega
  | ⟨1, _⟩ => show win0_18.index t (1 : Fin 2) * 512 ≤ (i 1).val ∧ (i 1).val < win0_18.index t (1 : Fin 2) * 512 + 512; omega

/-- So window 18's array ends holding `Gc` of the arguments. -/
theorem final18 (c : Dev nD) : (dats m 0 c).arrAt 18 cfg0.N = Gc (kP m c) (m ((c : Thread nD τ).loc main_arg0)) (m ((c : Thread nD τ).loc main_arg2)) :=
  (dats m 0 c).arrAt_eq_of_cover 18 (Gc (kP m c) (m ((c : Thread nD τ).loc main_arg0)) (m ((c : Thread nD τ).loc main_arg2))) (fun t _ => flushed18_eq m c t) cover18

/-! ## The run, read -/

/-- The kernel's run with each result array at its function of the arguments, the arguments unchanged. -/
theorem run : θ_run defs (onTc (τ := τ) (main (F := Ideal))) ⟨m, fun _ => 0, ρ⟩ fun r => ∀ c : Dev nD,
      r.2.mem ((c : Thread nD τ).loc main_v19_0) = Gh (kP m c) (m ((c : Thread nD τ).loc main_arg0)) (m ((c : Thread nD τ).loc main_arg1)) (m ((c : Thread nD τ).loc main_arg2))
      ∧ r.2.mem ((c : Thread nD τ).loc main_v19_1) = Gc (kP m c) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final17 m c), (h c).2.1.trans (final18 m c), (h c).2.2⟩)
    (Value.run_blocks m ρ)

end Cert.KernelIdeal.Final

end
-- ==== Proof.RefRun.lean ====
/-
  The reference program's run, with its two results stated stage by stage.

  The reference is a straight line of 105 array operations, each writing a buffer of its own. Every weakly fair
  execution therefore ends, and each buffer ends at the fold of the operations over the launch contents: the first
  result buffer at the last stage of the new hidden state, the second at the last stage of the new cross-history,
  each stage being one operation applied to earlier stages; no operation writes an argument. The one side-by-side join
  of the program holds its two operands in a list of pairs; it is read as a function of the two (`join2`) so that
  its operands are read in turn.
-/
import proofs.«408809_j19172734009720_3_alg».proof.Proof.RefRead
import Idealize.ShloMosaic.Lib.StableHlo.Run

noncomputable section

namespace Cert.ReferenceIdeal.StagedRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Two 4096×256 arrays joined side by side, as a function of the two. -/
def join2 (a b : (⟨S4096x256, .f32⟩ : BufTy).Contents (Elt F)) : (⟨S4096x512, .f32⟩ : BufTy).Contents (Elt F) :=
  concatenate S4096x512 1 [⟨S4096x256, a⟩, ⟨S4096x256, b⟩] concatenates_S4096x256_S4096x256_S4096x512_d1

theorem join2_eq (a b : (⟨S4096x256, .f32⟩ : BufTy).Contents (Elt F)) :
    concatenate S4096x512 1 [⟨S4096x256, a⟩, ⟨S4096x256, b⟩] concatenates_S4096x256_S4096x256_S4096x512_d1 = join2 a b := rfl

/-- One pass that reads a buffer after the whole program: each operation's result at its own buffer is its function
    of its operands' buffers, every other buffer is untouched by it, and each stage is its defining operation. -/
local macro "read_stages" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', join2_eq,
      val_main_v91, val_main_v90, val_main_v89, val_main_cst_11, val_main_v88, val_main_v87, val_main_cst_10, val_main_v86, val_main_v85, val_main_v84, val_main_v83, val_main_cst_9, val_main_v82, val_main_v81, val_main_v80, val_main_v79, val_main_v78, val_main_v77, val_main_v76, val_main_v75, val_main_cst_8, val_main_v74, val_main_v73, val_main_cst_7, val_main_v72, val_main_v71, val_main_v70, val_main_v69, val_main_v68, val_main_v67, val_main_cst_6, val_main_v66, val_main_v65, val_main_cst_5, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_4, val_main_v33, val_main_v32, val_main_v31, val_main_v30, val_main_v29, val_main_v28, val_main_cst_3, val_main_v27, val_main_cst_2, val_main_v26, val_main_v25, val_main_v24, val_main_v23, val_main_v22, val_main_v21, val_main_v20, val_main_v19, val_main_v18, val_main_v17, val_main_cst_1, val_main_v16, val_main_v15, val_main_v14, val_main_v13, val_main_v12, val_main_v11, val_main_cst_0, val_main_v10, val_main_cst, val_main_v9, val_main_v8, val_main_v7, val_main_v6, val_main_v5, val_main_v4, val_main_v3, val_main_v2, val_main_v1, val_main_v0])

set_option maxRecDepth 65536 in
set_option maxHeartbeats 42000000 in
/-- Every weakly fair execution of the reference terminates with the two results at their last stages of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v91) = val_main_v91 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v86).trans (by read_stages; (repeat rw [join2_eq]); read_stages),
      (h c main_v91).trans (by read_stages; (repeat rw [join2_eq]); read_stages),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp),
      (h c main_arg12).trans (by after_results_simp),
      (h c main_arg13).trans (by after_results_simp),
      (h c main_arg14).trans (by after_results_simp),
      (h c main_arg15).trans (by after_results_simp),
      (h c main_arg16).trans (by after_results_simp),
      (h c main_arg17).trans (by after_results_simp)⟩)
    (run_seq scopedRefs_eq scopedSems_eq defs main (fun _ => ops) main_eq (fun _ => ops_sub) m ρ)

end Cert.ReferenceIdeal.StagedRun

end
-- ==== Proof.RefEmb.lean ====
/-
  The reference's two embeddings, read at an entry: each is the product of one half of the input row with its
  embedding matrix.
-/
import proofs.«408809_j19172734009720_3_alg».proof.Proof.RefRead
import proofs.«408809_j19172734009720_3_alg».proof.Proof.Whole

noncomputable section

namespace Cert.ReferenceIdeal.RefValue

open Cert.ReferenceIdeal Cert.ReferenceIdeal.Read Cert.Spec
open Idealize.ShloMosaic Idealize.ShloMosaic.TcCoe Idealize.ShloMosaic.ValueIdx

variable (a0 : Arr2 4096 4000) (a1 a2 : Arr2 4096 512) (a3 a4 : Arr2 2000 256)
  (a5 a6 a7 a8 a9 a10 : Arr2 256 256) (a11 : Arr2 512 512) (a12 : Arr1 512) (a13 : Arr2 512 512) (a14 : Arr1 512)
  (a15 a16 : Arr2 512 1536) (a17 : Arr1 1536)

/-- The weights read off the reference's fifteen weight arguments. -/
local notation "PP" => paramsOf a3 a4 a5 a6 a7 a8 a9 a10 a11 a12 a13 a14 a15 a16 a17

/-- The first embedding of row `b`. -/
theorem ref_emb1 (b : Fin 4096) (j : Fin 256) :
    val_main_v2 (F := Ideal) a0 a3 (ix2 b j) = emb1 PP (rowOf a0 b) j := by
  -- the product at (b, j) is the sum over the 2000 contracted coordinates
  refine (val_main_v2_apply a0 a3 (ix2 b j)).trans ?_
  unfold emb1
  refine Finset.sum_congr rfl fun k _ => ?_
  -- the left factor is the input at (b, k), the right factor the matrix at (k, j)
  have e0 : idx_main_v0 (lidx_main_v2 (ix2 b j) k) = ix2 b (up (by decide) k) :=
    funext fun a => Fin.ext (by match a with | ⟨0, _⟩ => rfl | ⟨1, _⟩ => rfl)
  have e3 : ridx_main_v2 (ix2 b j) k = ix2 k j :=
    funext fun a => Fin.ext (by match a with | ⟨0, _⟩ => rfl | ⟨1, _⟩ => rfl)
  exact congrArg₂ (· * ·) ((val_main_v0_apply (F := Ideal) a0 _).trans (congrArg a0 e0)) (congrArg a3 e3)

/-- The second embedding of row `b`. -/
theorem ref_emb2 (b : Fin 4096) (j : Fin 256) :
    val_main_v3 (F := Ideal) a0 a4 (ix2 b j) = emb2 PP (rowOf a0 b) j := by
  -- the product at (b, j) is the sum over the 2000 contracted coordinates
  refine (val_main_v3_apply a0 a4 (ix2 b j)).trans ?_
  unfold emb2
  refine Finset.sum_congr rfl fun k _ => ?_
  -- the left factor is the input at (b, 2000 + k), the right factor the matrix at (k, j)
  have e0 : idx_main_v1 (lidx_main_v3 (ix2 b j) k) = ix2 b (off 2000 (by decide) k) :=
    funext fun a => Fin.ext (by match a with | ⟨0, _⟩ => rfl | ⟨1, _⟩ => rfl)
  have e4 : ridx_main_v3 (ix2 b j) k = ix2 k j :=
    funext fun a => Fin.ext (by match a with | ⟨0, _⟩ => rfl | ⟨1, _⟩ => rfl)
  exact congrArg₂ (· * ·) ((val_main_v1_apply (F := Ideal) a0 _).trans (congrArg a0 e0)) (congrArg a4 e4)

end Cert.ReferenceIdeal.RefValue

end
-- ==== Proof.RefAtt.lean ====
/-
  The reference's two attention gates and the joined gated embeddings, read at an entry.
-/
import proofs.«408809_j19172734009720_3_alg».proof.Proof.RefEmb
import proofs.«408809_j19172734009720_3_alg».proof.Proof.LibLayoutAt
import Idealize.ShloMosaic.PureOps.Reduce

noncomputable section

namespace Cert.ReferenceIdeal.RefValue

open Cert.ReferenceIdeal Cert.ReferenceIdeal.Read Cert.Spec
open Idealize.ShloMosaic Idealize.ShloMosaic.TcCoe Idealize.ShloMosaic.ValueIdx

/-! ## The steps of a row softmax, over an abstract 4096×256 array -/

/-- A vector of row values spread over the 256 columns (through a unit column axis) reads the row's value. -/
private theorem keep_at (v : FVec Ideal S4096 .f32) (b : Fin 4096) (j : Fin 256) :
    broadcastInDim S4096x256 ![0, 1] Gen.bcast_S4096x1_S4096x256_0_1
      (broadcastInDim S4096x1 ![0] Gen.bcast_S4096_S4096x1_0 v) (ix2 b j) = v (ix1 b) := by
  refine (broadcastInDim_apply _ Gen.bcast_S4096x1_S4096x256_0_1 _ (ix2 b j) (ix2 b (0 : Fin 1)) (fun a => match a with
    | ⟨0, _⟩ => by show b.val = if (4096 : Nat) = 1 then 0 else b.val; rw [if_neg (by decide)]
    | ⟨1, _⟩ => by show 0 = if (1 : Nat) = 1 then 0 else j.val; rw [if_pos rfl])).trans ?_
  exact broadcastInDim_apply _ Gen.bcast_S4096_S4096x1_0 v (ix2 b (0 : Fin 1)) (ix1 b) (fun a => match a with
    | ⟨0, _⟩ => by show b.val = if (4096 : Nat) = 1 then 0 else b.val; rw [if_neg (by decide)])

/-- The reduced index `b` with column `k` put back is (b, k). -/
private theorem lift_row (h : S4096x256.Reduces [1] S4096) (b : Fin 4096) (k : Fin 256) :
    h.lift (ix1 b) k = ix2 b k :=
  funext fun c => Fin.ext (by match c with | ⟨0, _⟩ => rfl | ⟨1, _⟩ => rfl)

/-- Minus infinity spread over the 4096 rows reads minus infinity. -/
private theorem negInfRow_at (b : Fin 4096) :
    broadcastInDim S4096 ![] Gen.bcast_S_S4096 (constant (F := Ideal) S_ .f32 0xFF800000#32) (ix1 b) = negInf :=
  broadcastInDim_apply _ Gen.bcast_S_S4096 _ (ix1 b) ix0 (fun a => a.elim0)

/-- The fold of row `b` by the maximum, from minus infinity. -/
private theorem foldMax_at (x : FVec Ideal S4096x256 .f32) (g : Fin 256 → EReal) (b : Fin 4096)
    (hx : ∀ k, x (ix2 b k) = g k) :
    Host.reduce (α := Ideal .f32) (FloatOps.maximumf (F := Ideal) (φ := .f32)) x (constant (F := Ideal) S_ .f32 0xFF800000#32)
      Gen.reducesTo_S4096x256_S4096_d1 Gen.h_S_ (ix1 b) = Finset.univ.fold max negInf g := by
  have h : S4096x256.Reduces [1] S4096 := by decide
  have hf : (x ∘ h.lift (ix1 b)) = g := funext fun k => (congrArg x (lift_row h b k)).trans (hx k)
  have e := Host.reduce_eq_fold_single (α := Ideal .f32) (FloatOps.maximumf (F := Ideal) (φ := .f32)) x
    (constant (F := Ideal) S_ .f32 0xFF800000#32) Gen.reducesTo_S4096x256_S4096_d1 h Gen.h_S_ (ix1 b)
  refine e.trans ?_
  exact congrArg (fun f => Finset.fold max negInf f (Finset.univ : Finset (Fin 256))) hf

/-- The row maximum as the program takes it — the fold of the row from minus infinity, and once more the maximum
    with minus infinity — is the specification's row maximum. -/
private theorem rowMax_at (x : FVec Ideal S4096x256 .f32) (g : Fin 256 → EReal) (b : Fin 4096)
    (hx : ∀ k, x (ix2 b k) = g k) :
    maximumf (F := Ideal) (φ := .f32) (broadcastInDim S4096 ![] Gen.bcast_S_S4096 (constant (F := Ideal) S_ .f32 0xFF800000#32))
      (Host.reduce (α := Ideal .f32) (FloatOps.maximumf (F := Ideal) (φ := .f32)) x (constant (F := Ideal) S_ .f32 0xFF800000#32)
        Gen.reducesTo_S4096x256_S4096_d1 Gen.h_S_) (ix1 b) = rowMax g := by
  unfold rowMax
  exact (maximumf_apply _ _ (ix1 b)).trans (congrArg₂ max (negInfRow_at b) (foldMax_at x g b hx))

/-- The row sum from the zero constant is the sum of the row. -/
private theorem rowSum_at (y : FVec Ideal S4096x256 .f32) (b : Fin 4096) :
    Host.reduceAdd (F := Ideal) (φ := .f32) y (constant (F := Ideal) S_ .f32 0x00000000#32) Gen.reducesTo_S4096x256_S4096_d1 Gen.h_S_ (ix1 b)
      = ∑ k : Fin 256, y (ix2 b k) := by
  have h : S4096x256.Reduces [1] S4096 := by decide
  simp only [Host.reduceAdd, Ideal.hostReduceAdd_def]
  rw [Ideal.hostReduceAdd_single Gen.reducesTo_S4096x256_S4096_d1 h]
  show Ideal.ofBits .f32 0x00000000#32 + _ = _
  rw [Ideal.ofBits_zero_f32, zero_add]
  exact Finset.sum_congr rfl fun k _ => congrArg y (lift_row h b k)

/-- The softmax of row `b`: if the array's row is `g`, the quotient of the shifted exponentials by their row sum is the
    specification's softmax of `g`. The intermediate arrays (the row maxima `m`, the exponentials `e`, the row sums `s`)
    are named so that a program's stages can be given for them. -/
private theorem softmax_at (x e : FVec Ideal S4096x256 .f32) (m s : FVec Ideal S4096 .f32) (g : Fin 256 → EReal) (b : Fin 4096)
    (hx : ∀ k, x (ix2 b k) = g k)
    (hm : m = maximumf (F := Ideal) (φ := .f32) (broadcastInDim S4096 ![] Gen.bcast_S_S4096 (constant (F := Ideal) S_ .f32 0xFF800000#32))
      (Host.reduce (α := Ideal .f32) (FloatOps.maximumf (F := Ideal) (φ := .f32)) x (constant (F := Ideal) S_ .f32 0xFF800000#32)
        Gen.reducesTo_S4096x256_S4096_d1 Gen.h_S_))
    (he : e = Host.exp (F := Ideal) (φ := .f32) (subf (F := Ideal) (φ := .f32) x (broadcastInDim S4096x256 ![0, 1] Gen.bcast_S4096x1_S4096x256_0_1
      (broadcastInDim S4096x1 ![0] Gen.bcast_S4096_S4096x1_0 m))))
    (hs : s = Host.reduceAdd (F := Ideal) (φ := .f32) e (constant (F := Ideal) S_ .f32 0x00000000#32) Gen.reducesTo_S4096x256_S4096_d1 Gen.h_S_)
    (j : Fin 256) :
    Host.divf (F := Ideal) (φ := .f32) e (broadcastInDim S4096x256 ![0, 1] Gen.bcast_S4096x1_S4096x256_0_1
      (broadcastInDim S4096x1 ![0] Gen.bcast_S4096_S4096x1_0 s)) (ix2 b j) = att g j := by
  have hmb : m (ix1 b) = rowMax g := by rw [hm]; exact rowMax_at x g b hx
  have hek : ∀ k, e (ix2 b k) = Ideal.exp (g k - rowMax g) := fun k => by
    rw [he]
    show Ideal.exp (x (ix2 b k) - _) = _
    rw [keep_at, hx, hmb]
  have hsb : s (ix1 b) = ∑ k : Fin 256, Ideal.exp (g k - rowMax g) := by
    rw [hs, rowSum_at]
    exact Finset.sum_congr rfl fun k _ => hek k
  show Ideal.div (e (ix2 b j)) _ = _
  rw [keep_at, hsb, hek j]
  rfl

/-! ## A stage times a 256×256 weight array -/

/-- Two indices of a matrix are equal when their two coordinates are. -/
local macro "ix_rfl" : tactic =>
  `(tactic| exact funext fun a => Fin.ext (by match a with | ⟨0, _⟩ => rfl | ⟨1, _⟩ => rfl))

/-- A stage whose row `b` is `e`, contracted with a 256×256 weight array and read at (b, j), is the row vector `e` times
    the matrix at column `j`; `li` and `ri` are the two operands' indices as the reading of the product names them. -/
private theorem proj_at (Y : Arr2 4096 256) (W : Arr2 256 256) (e : Fin 256 → EReal) (b : Fin 4096) (j : Fin 256)
    (hY : ∀ k, Y (ix2 b k) = e k) (li : Fin 256 → (⟨2, ![4096, 256]⟩ : Shape).Idx) (ri : Fin 256 → (⟨2, ![256, 256]⟩ : Shape).Idx)
    (hl : ∀ k, li k = ix2 b k) (hr : ∀ k, ri k = ix2 k j) :
    ∑ k : Fin 256, Y (li k) * W (ri k) = mv e (matOf W) j :=
  Finset.sum_congr rfl fun k _ => by rw [hl, hr, hY]; rfl

variable (a0 : Arr2 4096 4000) (a1 a2 : Arr2 4096 512) (a3 a4 : Arr2 2000 256)
  (a5 a6 a7 a8 a9 a10 : Arr2 256 256) (a11 : Arr2 512 512) (a12 : Arr1 512) (a13 : Arr2 512 512) (a14 : Arr1 512)
  (a15 a16 : Arr2 512 1536) (a17 : Arr1 1536)

/-- The weights read off the reference's fifteen weight arguments. -/
local notation "PP" => paramsOf a3 a4 a5 a6 a7 a8 a9 a10 a11 a12 a13 a14 a15 a16 a17

/-- The attention logits of the first embedding. -/
theorem ref_g12 (b : Fin 4096) (j : Fin 256) :
    val_main_v9 (F := Ideal) a0 a3 a4 a5 a6 a7 (ix2 b j) = g12 PP (rowOf a0 b) j := by
  have e1 := fun k => ref_emb1 a0 a3 a4 a5 a6 a7 a8 a9 a10 a11 a12 a13 a14 a15 a16 a17 b k
  have e2 := fun k => ref_emb2 a0 a3 a4 a5 a6 a7 a8 a9 a10 a11 a12 a13 a14 a15 a16 a17 b k
  have h4 : val_main_v4 (F := Ideal) a0 a3 a5 (ix2 b j) = mv (emb1 PP (rowOf a0 b)) (matOf a5) j :=
    (val_main_v4_apply a0 a3 a5 (ix2 b j)).trans
      (proj_at (val_main_v2 (F := Ideal) a0 a3) a5 _ b j e1 _ _ (fun _ => by ix_rfl) (fun _ => by ix_rfl))
  have h5 : val_main_v5 (F := Ideal) a0 a4 a6 (ix2 b j) = mv (emb2 PP (rowOf a0 b)) (matOf a6) j :=
    (val_main_v5_apply a0 a4 a6 (ix2 b j)).trans
      (proj_at (val_main_v3 (F := Ideal) a0 a4) a6 _ b j e2 _ _ (fun _ => by ix_rfl) (fun _ => by ix_rfl))
  have h8 : val_main_v8 (F := Ideal) a0 a4 a7 (ix2 b j) = mv (emb2 PP (rowOf a0 b)) (matOf a7) j :=
    (val_main_v8_apply a0 a4 a7 (ix2 b j)).trans
      (proj_at (val_main_v3 (F := Ideal) a0 a4) a7 _ b j e2 _ _ (fun _ => by ix_rfl) (fun _ => by ix_rfl))
  refine (val_main_v9_apply (F := Ideal) a0 a3 a4 a5 a6 a7 (ix2 b j)).trans ?_
  rw [val_main_v7_apply (F := Ideal), val_main_v6_apply (F := Ideal), h4, h5, h8]
  rfl

/-- Their softmax over the 256 coordinates. -/
theorem ref_att12 (b : Fin 4096) (j : Fin 256) :
    val_main_v20 (F := Ideal) a0 a3 a4 a5 a6 a7 (ix2 b j) = att (g12 PP (rowOf a0 b)) j := by
  exact softmax_at (val_main_v9 (F := Ideal) a0 a3 a4 a5 a6 a7) (val_main_v16 (F := Ideal) a0 a3 a4 a5 a6 a7)
    (val_main_v12 (F := Ideal) a0 a3 a4 a5 a6 a7) (val_main_v17 (F := Ideal) a0 a3 a4 a5 a6 a7) _ b
    (fun k => ref_g12 a0 a3 a4 a5 a6 a7 a8 a9 a10 a11 a12 a13 a14 a15 a16 a17 b k) rfl rfl rfl j

/-- The attention logits of the second embedding. -/
theorem ref_g21 (b : Fin 4096) (j : Fin 256) :
    val_main_v26 (F := Ideal) a0 a3 a4 a8 a9 a10 (ix2 b j) = g21 PP (rowOf a0 b) j := by
  have e1 := fun k => ref_emb1 a0 a3 a4 a5 a6 a7 a8 a9 a10 a11 a12 a13 a14 a15 a16 a17 b k
  have e2 := fun k => ref_emb2 a0 a3 a4 a5 a6 a7 a8 a9 a10 a11 a12 a13 a14 a15 a16 a17 b k
  have h21 : val_main_v21 (F := Ideal) a0 a4 a8 (ix2 b j) = mv (emb2 PP (rowOf a0 b)) (matOf a8) j :=
    (val_main_v21_apply a0 a4 a8 (ix2 b j)).trans
      (proj_at (val_main_v3 (F := Ideal) a0 a4) a8 _ b j e2 _ _ (fun _ => by ix_rfl) (fun _ => by ix_rfl))
  have h22 : val_main_v22 (F := Ideal) a0 a3 a9 (ix2 b j) = mv (emb1 PP (rowOf a0 b)) (matOf a9) j :=
    (val_main_v22_apply a0 a3 a9 (ix2 b j)).trans
      (proj_at (val_main_v2 (F := Ideal) a0 a3) a9 _ b j e1 _ _ (fun _ => by ix_rfl) (fun _ => by ix_rfl))
  have h25 : val_main_v25 (F := Ideal) a0 a3 a10 (ix2 b j) = mv (emb1 PP (rowOf a0 b)) (matOf a10) j :=
    (val_main_v25_apply a0 a3 a10 (ix2 b j)).trans
      (proj_at (val_main_v2 (F := Ideal) a0 a3) a10 _ b j e1 _ _ (fun _ => by ix_rfl) (fun _ => by ix_rfl))
  refine (val_main_v26_apply (F := Ideal) a0 a3 a4 a8 a9 a10 (ix2 b j)).trans ?_
  rw [val_main_v24_apply (F := Ideal), val_main_v23_apply (F := Ideal), h21, h22, h25]
  rfl

/-- Their softmax over the 256 coordinates. -/
theorem ref_att21 (b : Fin 4096) (j : Fin 256) :
    val_main_v37 (F := Ideal) a0 a3 a4 a8 a9 a10 (ix2 b j) = att (g21 PP (rowOf a0 b)) j := by
  exact softmax_at (val_main_v26 (F := Ideal) a0 a3 a4 a8 a9 a10) (val_main_v33 (F := Ideal) a0 a3 a4 a8 a9 a10)
    (val_main_v29 (F := Ideal) a0 a3 a4 a8 a9 a10) (val_main_v34 (F := Ideal) a0 a3 a4 a8 a9 a10) _ b
    (fun k => ref_g21 a0 a3 a4 a5 a6 a7 a8 a9 a10 a11 a12 a13 a14 a15 a16 a17 b k) rfl rfl rfl j

/-- The two gated embeddings side by side. -/
theorem ref_xc (b : Fin 4096) (j : Fin 512) :
    val_main_v40 (F := Ideal) a0 a3 a4 a5 a6 a7 a8 a9 a10 (ix2 b j) = xc PP (rowOf a0 b) j := by
  unfold val_main_v40 xc
  by_cases hj : j.val < 256
  · rw [dif_pos hj]
    refine (Cert.Lib.LayoutAt.sideBySide_left _ _ Gen.concatenates_S4096x256_S4096x256_S4096x512_d1 b j hj).trans ?_
    rw [val_main_v38_apply, ref_emb1 a0 a3 a4 a5 a6 a7 a8 a9 a10 a11 a12 a13 a14 a15 a16 a17,
      ref_att12 a0 a3 a4 a5 a6 a7 a8 a9 a10 a11 a12 a13 a14 a15 a16 a17]
    rfl
  · rw [dif_neg hj]
    have hB : j.val - 256 < 256 := by have := j.isLt; omega
    refine (Cert.Lib.LayoutAt.sideBySide_right _ _ Gen.concatenates_S4096x256_S4096x256_S4096x512_d1 b j (by omega) hB).trans ?_
    rw [val_main_v39_apply, ref_emb2 a0 a3 a4 a5 a6 a7 a8 a9 a10 a11 a12 a13 a14 a15 a16 a17,
      ref_att21 a0 a3 a4 a5 a6 a7 a8 a9 a10 a11 a12 a13 a14 a15 a16 a17]
    rfl

end Cert.ReferenceIdeal.RefValue

end
-- ==== Proof.RefCro.lean ====
/-
  The reference's cross-history branch, read at an entry.
-/
import proofs.«408809_j19172734009720_3_alg».proof.Proof.RefRead
import proofs.«408809_j19172734009720_3_alg».proof.Proof.Whole

noncomputable section

namespace Cert.ReferenceIdeal.RefValue

open Cert.ReferenceIdeal Cert.ReferenceIdeal.Read Cert.Spec
open Idealize.ShloMosaic Idealize.ShloMosaic.TcCoe Idealize.ShloMosaic.ValueIdx

variable (a0 : Arr2 4096 4000) (a1 a2 : Arr2 4096 512) (a3 a4 : Arr2 2000 256)
  (a5 a6 a7 a8 a9 a10 : Arr2 256 256) (a11 : Arr2 512 512) (a12 : Arr1 512) (a13 : Arr2 512 512) (a14 : Arr1 512)
  (a15 a16 : Arr2 512 1536) (a17 : Arr1 1536)

/-- The weights read off the reference's fifteen weight arguments. -/
local notation "PP" => paramsOf a3 a4 a5 a6 a7 a8 a9 a10 a11 a12 a13 a14 a15 a16 a17

/-- The operands' indices of the two products and of the two bias rows, at an entry given by its coordinates. -/
private theorem l41 (b : Fin 4096) (j k : Fin 512) : lidx_main_v41 (ix2 b j) k = ix2 b k :=
  funext fun a => Fin.ext (by match a with | ⟨0, _⟩ => rfl | ⟨1, _⟩ => rfl)
private theorem r41 (b : Fin 4096) (j k : Fin 512) : ridx_main_v41 (ix2 b j) k = ix2 k j :=
  funext fun a => Fin.ext (by match a with | ⟨0, _⟩ => rfl | ⟨1, _⟩ => rfl)
private theorem i43 (b : Fin 4096) (j : Fin 512) : idx_main_v42 (idx_main_v43 (ix2 b j)) = ix1 j :=
  funext fun a => Fin.ext (by match a with | ⟨0, _⟩ => rfl)
private theorem l46 (b : Fin 4096) (j k : Fin 512) : lidx_main_v46 (ix2 b j) k = ix2 b k :=
  funext fun a => Fin.ext (by match a with | ⟨0, _⟩ => rfl | ⟨1, _⟩ => rfl)
private theorem r46 (b : Fin 4096) (j k : Fin 512) : ridx_main_v46 (ix2 b j) k = ix2 k j :=
  funext fun a => Fin.ext (by match a with | ⟨0, _⟩ => rfl | ⟨1, _⟩ => rfl)
private theorem i48 (b : Fin 4096) (j : Fin 512) : idx_main_v47 (idx_main_v48 (ix2 b j)) = ix1 j :=
  funext fun a => Fin.ext (by match a with | ⟨0, _⟩ => rfl)

/-- The decomposed cross-history of row `b`. -/
theorem ref_cro (b : Fin 4096) (j : Fin 512) :
    val_main_v45 (F := Ideal) a2 a13 a14 (ix2 b j) = cro PP (rowOf a2 b) j := by
  -- the hyperbolic tangent of the projected row plus the bias, on both sides
  show Ideal.tanh (val_main_v41 (F := Ideal) a2 a13 (ix2 b j) + val_main_v43 (F := Ideal) a14 (ix2 b j))
      = Ideal.tanh (mv (rowOf a2 b) (matOf a13) j + vecOf a14 j)
  refine congrArg Ideal.tanh (congrArg₂ (· + ·) ?_ ?_)
  · -- the product: the sum over the 512 contracted coordinates
    refine (val_main_v41_apply a2 a13 (ix2 b j)).trans (Finset.sum_congr rfl fun k _ => ?_)
    rw [l41, r41]; rfl
  · -- the bias row, spread over the batch
    refine (val_main_v43_apply (F := Ideal) a14 (ix2 b j)).trans ((val_main_v42_apply (F := Ideal) a14 _).trans ?_)
    rw [i43]; rfl

/-- The hidden state the GRU step starts from. -/
theorem ref_hp (b : Fin 4096) (j : Fin 512) :
    val_main_v51 (F := Ideal) a1 a2 a11 a12 a13 a14 (ix2 b j) = hp PP (rowOf a1 b) (rowOf a2 b) j := by
  -- the previous hidden state plus the hyperbolic tangent of the projected cross-history plus the bias
  show a1 (ix2 b j)
        + Ideal.tanh (val_main_v46 (F := Ideal) a2 a11 a13 a14 (ix2 b j) + val_main_v48 (F := Ideal) a12 (ix2 b j))
      = rowOf a1 b j + Ideal.tanh (mv (cro PP (rowOf a2 b)) (matOf a11) j + vecOf a12 j)
  refine congrArg (a1 (ix2 b j) + ·) (congrArg Ideal.tanh (congrArg₂ (· + ·) ?_ ?_))
  · -- the product over the 512 coordinates of the decomposed cross-history
    refine (val_main_v46_apply a2 a11 a13 a14 (ix2 b j)).trans (Finset.sum_congr rfl fun k _ => ?_)
    rw [l46, r46, ref_cro a2 a3 a4 a5 a6 a7 a8 a9 a10 a11 a12 a13 a14 a15 a16 a17 b k]; rfl
  · -- the bias row, spread over the batch
    refine (val_main_v48_apply (F := Ideal) a12 (ix2 b j)).trans ((val_main_v47_apply (F := Ideal) a12 _).trans ?_)
    rw [i48]; rfl

end Cert.ReferenceIdeal.RefValue

end
-- ==== Proof.RefGru.lean ====
/-
  The reference's GRU step and its two results, read at an entry, and the two result arrays as the functions
  `Gh` and `Gc` of the arguments.
-/
import proofs.«408809_j19172734009720_3_alg».proof.Proof.RefAtt
import proofs.«408809_j19172734009720_3_alg».proof.Proof.RefCro

noncomputable section

namespace Cert.ReferenceIdeal.RefValue

open Cert.ReferenceIdeal Cert.ReferenceIdeal.Read Cert.Spec
open Idealize.ShloMosaic Idealize.ShloMosaic.TcCoe Idealize.ShloMosaic.ValueIdx

variable (a0 : Arr2 4096 4000) (a1 a2 : Arr2 4096 512) (a3 a4 : Arr2 2000 256)
  (a5 a6 a7 a8 a9 a10 : Arr2 256 256) (a11 : Arr2 512 512) (a12 : Arr1 512) (a13 : Arr2 512 512) (a14 : Arr1 512)
  (a15 a16 : Arr2 512 1536) (a17 : Arr1 1536)

/-- The weights read off the reference's fifteen weight arguments. -/
local notation "PP" => paramsOf a3 a4 a5 a6 a7 a8 a9 a10 a11 a12 a13 a14 a15 a16 a17

/-! ## Indices of the reference's operations at an entry written by its coordinates -/

/-- The number one as the reference spells it. -/
private theorem lit_one : Ideal.ofBits .f32 0x3F800000#32 = 1 := by
  simp [Ideal.ofBits, Ideal.ieee, -EReal.coe_mul]; norm_num

/-- The reference's sigmoid, one over one plus the exponential of the negation, is the logistic function. -/
private theorem sigmoid_eq (y : EReal) :
    Ideal.div (Ideal.ofBits .f32 0x3F800000#32) (Ideal.ofBits .f32 0x3F800000#32 + Ideal.exp (-y))
      = Ideal.logistic y := by
  rw [lit_one]; rfl

private theorem lidx52_at (b : Fin 4096) (j : Fin 1536) (k : Fin 512) : lidx_main_v52 (ix2 b j) k = ix2 b k :=
  funext fun a => match a with | ⟨0, _⟩ => rfl | ⟨1, _⟩ => rfl
private theorem ridx52_at (b : Fin 4096) (j : Fin 1536) (k : Fin 512) : ridx_main_v52 (ix2 b j) k = ix2 k j :=
  funext fun a => match a with | ⟨0, _⟩ => rfl | ⟨1, _⟩ => rfl
private theorem lidx60_at (b : Fin 4096) (j : Fin 1024) (k : Fin 512) : lidx_main_v60 (ix2 b j) k = ix2 b k :=
  funext fun a => match a with | ⟨0, _⟩ => rfl | ⟨1, _⟩ => rfl
private theorem ridx60_at (b : Fin 4096) (j : Fin 1024) (k : Fin 512) : ridx_main_v60 (ix2 b j) k = ix2 k j :=
  funext fun a => match a with | ⟨0, _⟩ => rfl | ⟨1, _⟩ => rfl
private theorem lidx79_at (b : Fin 4096) (j : Fin 512) (k : Fin 512) : lidx_main_v79 (ix2 b j) k = ix2 b k :=
  funext fun a => match a with | ⟨0, _⟩ => rfl | ⟨1, _⟩ => rfl
private theorem ridx79_at (b : Fin 4096) (j : Fin 512) (k : Fin 512) : ridx_main_v79 (ix2 b j) k = ix2 k j :=
  funext fun a => match a with | ⟨0, _⟩ => rfl | ⟨1, _⟩ => rfl

private theorem idx56_at (b : Fin 4096) (j : Fin 512) :
    idx_main_v56 (ix2 b j) = ix2 b (up (by decide : 512 ≤ 1536) j) :=
  funext fun a => match a with | ⟨0, _⟩ => rfl | ⟨1, _⟩ => rfl
private theorem idx57_at (b : Fin 4096) (j : Fin 512) :
    idx_main_v57 (ix2 b j) = ix2 b (off 512 (by decide : 512 + 512 ≤ 1536) j) :=
  funext fun a => match a with | ⟨0, _⟩ => rfl | ⟨1, _⟩ => rfl
private theorem idx58_at (b : Fin 4096) (j : Fin 512) :
    idx_main_v58 (ix2 b j) = ix2 b (off 1024 (by decide : 1024 + 512 ≤ 1536) j) :=
  funext fun a => match a with | ⟨0, _⟩ => rfl | ⟨1, _⟩ => rfl
private theorem idx59_at (k : Fin 512) (j : Fin 1024) :
    idx_main_v59 (ix2 k j) = ix2 k (up (by decide : 1024 ≤ 1536) j) :=
  funext fun a => match a with | ⟨0, _⟩ => rfl | ⟨1, _⟩ => rfl
private theorem idx61_at (b : Fin 4096) (j : Fin 512) :
    idx_main_v61 (ix2 b j) = ix2 b (up (by decide : 512 ≤ 1024) j) :=
  funext fun a => match a with | ⟨0, _⟩ => rfl | ⟨1, _⟩ => rfl
private theorem idx69_at (b : Fin 4096) (j : Fin 512) :
    idx_main_v69 (ix2 b j) = ix2 b (off 512 (by decide : 512 + 512 ≤ 1024) j) :=
  funext fun a => match a with | ⟨0, _⟩ => rfl | ⟨1, _⟩ => rfl
private theorem idx78_at (k : Fin 512) (j : Fin 512) :
    idx_main_v78 (ix2 k j) = ix2 k (off 1024 (by decide : 1024 + 512 ≤ 1536) j) :=
  funext fun a => match a with | ⟨0, _⟩ => rfl | ⟨1, _⟩ => rfl

/-! ## The literals one and one half spread over the batch -/

private theorem v65_at (b : Fin 4096) (j : Fin 512) :
    val_main_v65 (F := Ideal) (ix2 b j) = Ideal.ofBits .f32 0x3F800000#32 := by
  rw [val_main_v65_apply]; rfl
private theorem v67_at (b : Fin 4096) (j : Fin 512) :
    val_main_v67 (F := Ideal) (ix2 b j) = Ideal.ofBits .f32 0x3F800000#32 := by
  rw [val_main_v67_apply]; rfl
private theorem v73_at (b : Fin 4096) (j : Fin 512) :
    val_main_v73 (F := Ideal) (ix2 b j) = Ideal.ofBits .f32 0x3F800000#32 := by
  rw [val_main_v73_apply]; rfl
private theorem v75_at (b : Fin 4096) (j : Fin 512) :
    val_main_v75 (F := Ideal) (ix2 b j) = Ideal.ofBits .f32 0x3F800000#32 := by
  rw [val_main_v75_apply]; rfl
private theorem v83_at (b : Fin 4096) (j : Fin 512) : val_main_v83 (F := Ideal) (ix2 b j) = Spec.one := by
  rw [val_main_v83_apply]; rfl
private theorem v87_at (b : Fin 4096) (j : Fin 512) : val_main_v87 (F := Ideal) (ix2 b j) = Spec.half := by
  rw [val_main_v87_apply]; rfl
private theorem v89_at (b : Fin 4096) (j : Fin 512) : val_main_v89 (F := Ideal) (ix2 b j) = Spec.half := by
  rw [val_main_v89_apply]; rfl

/-- The input's contribution to the three gates. -/
theorem ref_mx (b : Fin 4096) (j : Fin 1536) :
    val_main_v55 (F := Ideal) a0 a3 a4 a5 a6 a7 a8 a9 a10 a15 a17 (ix2 b j) = mx PP (rowOf a0 b) j := by
  show val_main_v52 (F := Ideal) a0 a3 a4 a5 a6 a7 a8 a9 a10 a15 (ix2 b j) + val_main_v54 (F := Ideal) a17 (ix2 b j)
    = mv (xc PP (rowOf a0 b)) (PP).KM j + (PP).bv j
  refine congrArg₂ (· + ·) ?_ ?_
  · refine (val_main_v52_apply a0 a3 a4 a5 a6 a7 a8 a9 a10 a15 (ix2 b j)).trans ?_
    refine Finset.sum_congr rfl fun k _ => ?_
    rw [lidx52_at, ridx52_at, ref_xc a0 a3 a4 a5 a6 a7 a8 a9 a10 a11 a12 a13 a14 a15 a16 a17 b k]
    rfl
  · rw [val_main_v54_apply, val_main_v53_apply]
    exact congrArg a17 (funext fun a => match a with | ⟨0, _⟩ => rfl)

/-- The hidden state's contribution to the update and reset gates. -/
theorem ref_mi (b : Fin 4096) (j : Fin 1024) :
    val_main_v60 (F := Ideal) a1 a2 a11 a12 a13 a14 a16 (ix2 b j) = mi PP (rowOf a1 b) (rowOf a2 b) j := by
  refine (val_main_v60_apply a1 a2 a11 a12 a13 a14 a16 (ix2 b j)).trans ?_
  show _ = ∑ k : Fin 512, hp PP (rowOf a1 b) (rowOf a2 b) k * (PP).RK k (up (by decide) j)
  refine Finset.sum_congr rfl fun k _ => ?_
  rw [lidx60_at, ridx60_at, ref_hp a1 a2 a3 a4 a5 a6 a7 a8 a9 a10 a11 a12 a13 a14 a15 a16 a17 b k, val_main_v59_apply, idx59_at]
  rfl

/-! ## The column slices of the two gate contributions -/

private theorem v56_at (b : Fin 4096) (j : Fin 512) :
    val_main_v56 (F := Ideal) a0 a3 a4 a5 a6 a7 a8 a9 a10 a15 a17 (ix2 b j) = mx PP (rowOf a0 b) (up (by decide) j) := by
  rw [val_main_v56_apply, idx56_at]
  exact ref_mx a0 a3 a4 a5 a6 a7 a8 a9 a10 a11 a12 a13 a14 a15 a16 a17 b _
private theorem v57_at (b : Fin 4096) (j : Fin 512) :
    val_main_v57 (F := Ideal) a0 a3 a4 a5 a6 a7 a8 a9 a10 a15 a17 (ix2 b j) = mx PP (rowOf a0 b) (off 512 (by decide) j) := by
  rw [val_main_v57_apply, idx57_at]
  exact ref_mx a0 a3 a4 a5 a6 a7 a8 a9 a10 a11 a12 a13 a14 a15 a16 a17 b _
private theorem v58_at (b : Fin 4096) (j : Fin 512) :
    val_main_v58 (F := Ideal) a0 a3 a4 a5 a6 a7 a8 a9 a10 a15 a17 (ix2 b j) = mx PP (rowOf a0 b) (off 1024 (by decide) j) := by
  rw [val_main_v58_apply, idx58_at]
  exact ref_mx a0 a3 a4 a5 a6 a7 a8 a9 a10 a11 a12 a13 a14 a15 a16 a17 b _
private theorem v61_at (b : Fin 4096) (j : Fin 512) :
    val_main_v61 (F := Ideal) a1 a2 a11 a12 a13 a14 a16 (ix2 b j) = mi PP (rowOf a1 b) (rowOf a2 b) (up (by decide) j) := by
  rw [val_main_v61_apply, idx61_at]
  exact ref_mi a1 a2 a3 a4 a5 a6 a7 a8 a9 a10 a11 a12 a13 a14 a15 a16 a17 b _
private theorem v69_at (b : Fin 4096) (j : Fin 512) :
    val_main_v69 (F := Ideal) a1 a2 a11 a12 a13 a14 a16 (ix2 b j) = mi PP (rowOf a1 b) (rowOf a2 b) (off 512 (by decide) j) := by
  rw [val_main_v69_apply, idx69_at]
  exact ref_mi a1 a2 a3 a4 a5 a6 a7 a8 a9 a10 a11 a12 a13 a14 a15 a16 a17 b _

/-- The update gate. -/
theorem ref_zg (b : Fin 4096) (j : Fin 512) :
    val_main_v68 (F := Ideal) a0 a1 a2 a3 a4 a5 a6 a7 a8 a9 a10 a11 a12 a13 a14 a15 a16 a17 (ix2 b j) = zg PP (rowOf a0 b) (rowOf a1 b) (rowOf a2 b) j := by
  show Ideal.div (val_main_v67 (F := Ideal) (ix2 b j))
      (val_main_v65 (F := Ideal) (ix2 b j) + Ideal.exp (-(val_main_v56 (F := Ideal) a0 a3 a4 a5 a6 a7 a8 a9 a10 a15 a17 (ix2 b j)
        + val_main_v61 (F := Ideal) a1 a2 a11 a12 a13 a14 a16 (ix2 b j))))
    = Ideal.logistic (mx PP (rowOf a0 b) (up (by decide) j) + mi PP (rowOf a1 b) (rowOf a2 b) (up (by decide) j))
  rw [v67_at, v65_at, v56_at a0 a3 a4 a5 a6 a7 a8 a9 a10 a11 a12 a13 a14 a15 a16 a17 b j, v61_at a1 a2 a3 a4 a5 a6 a7 a8 a9 a10 a11 a12 a13 a14 a15 a16 a17 b j]
  exact sigmoid_eq _

/-- The reset gate. -/
theorem ref_rg (b : Fin 4096) (j : Fin 512) :
    val_main_v76 (F := Ideal) a0 a1 a2 a3 a4 a5 a6 a7 a8 a9 a10 a11 a12 a13 a14 a15 a16 a17 (ix2 b j) = rg PP (rowOf a0 b) (rowOf a1 b) (rowOf a2 b) j := by
  show Ideal.div (val_main_v75 (F := Ideal) (ix2 b j))
      (val_main_v73 (F := Ideal) (ix2 b j) + Ideal.exp (-(val_main_v57 (F := Ideal) a0 a3 a4 a5 a6 a7 a8 a9 a10 a15 a17 (ix2 b j)
        + val_main_v69 (F := Ideal) a1 a2 a11 a12 a13 a14 a16 (ix2 b j))))
    = Ideal.logistic (mx PP (rowOf a0 b) (off 512 (by decide) j) + mi PP (rowOf a1 b) (rowOf a2 b) (off 512 (by decide) j))
  rw [v75_at, v73_at, v57_at a0 a3 a4 a5 a6 a7 a8 a9 a10 a11 a12 a13 a14 a15 a16 a17 b j, v69_at a1 a2 a3 a4 a5 a6 a7 a8 a9 a10 a11 a12 a13 a14 a15 a16 a17 b j]
  exact sigmoid_eq _

/-- The candidate state. -/
theorem ref_hh (b : Fin 4096) (j : Fin 512) :
    val_main_v81 (F := Ideal) a0 a1 a2 a3 a4 a5 a6 a7 a8 a9 a10 a11 a12 a13 a14 a15 a16 a17 (ix2 b j) = hh PP (rowOf a0 b) (rowOf a1 b) (rowOf a2 b) j := by
  show Ideal.tanh (val_main_v58 (F := Ideal) a0 a3 a4 a5 a6 a7 a8 a9 a10 a15 a17 (ix2 b j) + val_main_v79 (F := Ideal) a0 a1 a2 a3 a4 a5 a6 a7 a8 a9 a10 a11 a12 a13 a14 a15 a16 a17 (ix2 b j))
    = Ideal.tanh (mx PP (rowOf a0 b) (off 1024 (by decide) j)
        + mv (fun k => rg PP (rowOf a0 b) (rowOf a1 b) (rowOf a2 b) k * hp PP (rowOf a1 b) (rowOf a2 b) k) (fun k j' => (PP).RK k (off 1024 (by decide) j')) j)
  refine congrArg Ideal.tanh (congrArg₂ (· + ·) (v58_at a0 a3 a4 a5 a6 a7 a8 a9 a10 a11 a12 a13 a14 a15 a16 a17 b j) ?_)
  refine (val_main_v79_apply a0 a1 a2 a3 a4 a5 a6 a7 a8 a9 a10 a11 a12 a13 a14 a15 a16 a17 (ix2 b j)).trans ?_
  refine Finset.sum_congr rfl fun k _ => ?_
  rw [lidx79_at, ridx79_at, val_main_v78_apply, idx78_at]
  show val_main_v76 (F := Ideal) a0 a1 a2 a3 a4 a5 a6 a7 a8 a9 a10 a11 a12 a13 a14 a15 a16 a17 (ix2 b k) * val_main_v51 (F := Ideal) a1 a2 a11 a12 a13 a14 (ix2 b k)
      * a16 (ix2 k (off 1024 (by decide) j))
    = rg PP (rowOf a0 b) (rowOf a1 b) (rowOf a2 b) k * hp PP (rowOf a1 b) (rowOf a2 b) k * (PP).RK k (off 1024 (by decide) j)
  rw [ref_rg a0 a1 a2 a3 a4 a5 a6 a7 a8 a9 a10 a11 a12 a13 a14 a15 a16 a17 b k, ref_hp a1 a2 a3 a4 a5 a6 a7 a8 a9 a10 a11 a12 a13 a14 a15 a16 a17 b k]
  rfl

/-- The new hidden state. -/
theorem ref_hnew (b : Fin 4096) (j : Fin 512) :
    val_main_v86 (F := Ideal) a0 a1 a2 a3 a4 a5 a6 a7 a8 a9 a10 a11 a12 a13 a14 a15 a16 a17 (ix2 b j) = hnew PP (rowOf a0 b) (rowOf a1 b) (rowOf a2 b) j := by
  show val_main_v68 (F := Ideal) a0 a1 a2 a3 a4 a5 a6 a7 a8 a9 a10 a11 a12 a13 a14 a15 a16 a17 (ix2 b j) * val_main_v51 (F := Ideal) a1 a2 a11 a12 a13 a14 (ix2 b j)
      + (val_main_v83 (F := Ideal) (ix2 b j) - val_main_v68 (F := Ideal) a0 a1 a2 a3 a4 a5 a6 a7 a8 a9 a10 a11 a12 a13 a14 a15 a16 a17 (ix2 b j))
        * val_main_v81 (F := Ideal) a0 a1 a2 a3 a4 a5 a6 a7 a8 a9 a10 a11 a12 a13 a14 a15 a16 a17 (ix2 b j)
    = zg PP (rowOf a0 b) (rowOf a1 b) (rowOf a2 b) j * hp PP (rowOf a1 b) (rowOf a2 b) j + (Spec.one - zg PP (rowOf a0 b) (rowOf a1 b) (rowOf a2 b) j) * hh PP (rowOf a0 b) (rowOf a1 b) (rowOf a2 b) j
  rw [ref_zg a0 a1 a2 a3 a4 a5 a6 a7 a8 a9 a10 a11 a12 a13 a14 a15 a16 a17 b j, ref_hp a1 a2 a3 a4 a5 a6 a7 a8 a9 a10 a11 a12 a13 a14 a15 a16 a17 b j, ref_hh a0 a1 a2 a3 a4 a5 a6 a7 a8 a9 a10 a11 a12 a13 a14 a15 a16 a17 b j, v83_at]

/-- The new cross-history. -/
theorem ref_cnew (b : Fin 4096) (j : Fin 512) :
    val_main_v91 (F := Ideal) a0 a2 a3 a4 a5 a6 a7 a8 a9 a10 (ix2 b j) = cnew PP (rowOf a0 b) (rowOf a2 b) j := by
  show val_main_v87 (F := Ideal) (ix2 b j) * a2 (ix2 b j)
      + val_main_v89 (F := Ideal) (ix2 b j) * val_main_v40 (F := Ideal) a0 a3 a4 a5 a6 a7 a8 a9 a10 (ix2 b j)
    = Spec.half * rowOf a2 b j + Spec.half * xc PP (rowOf a0 b) j
  rw [v87_at, v89_at, ref_xc a0 a3 a4 a5 a6 a7 a8 a9 a10 a11 a12 a13 a14 a15 a16 a17 b j]
  rfl

/-- The reference's first result is `Gh` of its arguments. -/
theorem ref_h_eq : val_main_v86 (F := Ideal) a0 a1 a2 a3 a4 a5 a6 a7 a8 a9 a10 a11 a12 a13 a14 a15 a16 a17 = Gh PP a0 a1 a2 := by
  funext i
  obtain ⟨b, j, rfl⟩ : ∃ (b : Fin 4096) (j : Fin 512), i = ix2 b j := ⟨i 0, i 1, eq_ix2 i⟩
  exact ref_hnew a0 a1 a2 a3 a4 a5 a6 a7 a8 a9 a10 a11 a12 a13 a14 a15 a16 a17 b j

/-- The reference's second result is `Gc` of its arguments. -/
theorem ref_c_eq : val_main_v91 (F := Ideal) a0 a2 a3 a4 a5 a6 a7 a8 a9 a10 = Gc PP a0 a2 := by
  funext i
  obtain ⟨b, j, rfl⟩ : ∃ (b : Fin 4096) (j : Fin 512), i = ix2 b j := ⟨i 0, i 1, eq_ix2 i⟩
  exact ref_cnew a0 a2 a3 a4 a5 a6 a7 a8 a9 a10 a11 a12 a13 a14 a15 a16 a17 b j

end Cert.ReferenceIdeal.RefValue

end
-- ==== Proof.lean ====
/-
  A fused recurrent cell with two cross-attention-gated embeddings, one step over a batch of 4096 rows: the
  tiled kernel against the plain array program, on the extended reals.

  Every batch row is independent. The kernel works on eight blocks of 512 rows; it embeds both halves of a row's
  4000 input features with ONE product against the 4000×512 block matrix [[W1, 0], [0, W2]], where the reference
  multiplies each half by its own matrix: the sum over 4000 coordinates splits into two sums over 2000, and in each
  the zero block's terms vanish. The two softmax gates, the cross-history branch, the three GRU gates (the kernel's
  logistic is the reference's 1 / (1 + exp (−y))) and the even mixture for the new cross-history are the same
  operations on both sides, all changes of float format being the identity. So both programs end with the arrays
  `Gh` and `Gc` (Proof/Whole.lean) of the arguments: the row specification of Proof/Spec.lean applied to every row.

  The kernel's side: Proof/KerEmb, KerAtt, KerCro, KerGru read the body's pieces at an entry of a block, KerOut joins
  them, KerComb and KerHost read what the weight windows hold, KerFinal goes from blocks to whole arrays. The
  reference's side: Proof/RefEmb, RefAtt, RefCro, RefGru read its operations at an entry, stage by stage. The three
  kernel's two frames are the generated ones; the reference's frame is its run (Proof/RefRun) with the results
  dropped; no operation was rewritten by the idealization, so there is nothing to preserve.
-/
import proofs.«408809_j19172734009720_3_alg».proof.Defs
import proofs.«408809_j19172734009720_3_alg».proof.Proof.Gen.Kernel
import proofs.«408809_j19172734009720_3_alg».proof.Proof.Gen.Kernel.Skeleton
import proofs.«408809_j19172734009720_3_alg».proof.Proof.Gen.Kernel.Launch
import proofs.«408809_j19172734009720_3_alg».proof.Proof.Gen.Kernel.Points
import proofs.«408809_j19172734009720_3_alg».proof.Proof.Gen.Kernel.Frame
import proofs.«408809_j19172734009720_3_alg».proof.Proof.Gen.KernelIdeal
import proofs.«408809_j19172734009720_3_alg».proof.Proof.Gen.KernelIdeal.Skeleton
import proofs.«408809_j19172734009720_3_alg».proof.Proof.Gen.KernelIdeal.Launch
import proofs.«408809_j19172734009720_3_alg».proof.Proof.Gen.KernelIdeal.Points
import proofs.«408809_j19172734009720_3_alg».proof.Proof.Gen.KernelIdeal.Frame
import proofs.«408809_j19172734009720_3_alg».proof.Proof.Gen.ReferenceIdeal
import proofs.«408809_j19172734009720_3_alg».proof.Proof.Gen.Pre_finite_inputs
import proofs.«408809_j19172734009720_3_alg».proof.Proof.Gen.KernelIdeal.Value
import proofs.«408809_j19172734009720_3_alg».proof.Proof.KerFinal
import proofs.«408809_j19172734009720_3_alg».proof.Proof.RefRun
import proofs.«408809_j19172734009720_3_alg».proof.Proof.RefRead
import proofs.«408809_j19172734009720_3_alg».proof.Proof.RefGru
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.StagedRun.run (F := Ideal) m ρ)

/-- Equal weight arrays give equal weights. -/
theorem paramsOf_congr {a3 a3' a4 a4' : Cert.Spec.Arr2 2000 256} {a5 a5' a6 a6' a7 a7' a8 a8' a9 a9' a10 a10' : Cert.Spec.Arr2 256 256}
    {a11 a11' : Cert.Spec.Arr2 512 512} {a12 a12' : Cert.Spec.Arr1 512} {a13 a13' : Cert.Spec.Arr2 512 512} {a14 a14' : Cert.Spec.Arr1 512}
    {a15 a15' a16 a16' : Cert.Spec.Arr2 512 1536} {a17 a17' : Cert.Spec.Arr1 1536}
    (h3 : a3 = a3') (h4 : a4 = a4') (h5 : a5 = a5') (h6 : a6 = a6') (h7 : a7 = a7') (h8 : a8 = a8') (h9 : a9 = a9')
    (h10 : a10 = a10') (h11 : a11 = a11') (h12 : a12 = a12') (h13 : a13 = a13') (h14 : a14 = a14') (h15 : a15 = a15')
    (h16 : a16 = a16') (h17 : a17 = a17') :
    Cert.Spec.paramsOf a3 a4 a5 a6 a7 a8 a9 a10 a11 a12 a13 a14 a15 a16 a17
      = Cert.Spec.paramsOf a3' a4' a5' a6' a7' a8' a9' a10' a11' a12' a13' a14' a15' a16' a17' := by
  subst h3 h4 h5 h6 h7 h8 h9 h10 h11 h12 h13 h14 h15 h16 h17; rfl

/-- Equal weights and equal batch arrays give equal new hidden states. -/
theorem Gh_congr {P P' : Cert.Spec.Params} {a0 a0' : Cert.Spec.Arr2 4096 4000} {a1 a1' a2 a2' : Cert.Spec.Arr2 4096 512}
    (hP : P = P') (h0 : a0 = a0') (h1 : a1 = a1') (h2 : a2 = a2') :
    Cert.Spec.Gh P a0 a1 a2 = Cert.Spec.Gh P' a0' a1' a2' := by
  subst hP h0 h1 h2; rfl

/-- Equal weights and equal batch arrays give equal new cross-histories. -/
theorem Gc_congr {P P' : Cert.Spec.Params} {a0 a0' : Cert.Spec.Arr2 4096 4000} {a2 a2' : Cert.Spec.Arr2 4096 512}
    (hP : P = P') (h0 : a0 = a0') (h2 : a2 = a2') :
    Cert.Spec.Gc P a0 a2 = Cert.Spec.Gc P' a0' a2' := by
  subst hP h0 h2; rfl

/-- From memories that agree on the eighteen arguments both programs end with the new hidden state `Gh` and the new
    cross-history `Gc` of those arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun r h c => ?_) (Cert.ReferenceIdeal.StagedRun.run (F := Ideal) m' ρ')
  obtain ⟨h0, h1, h2, h3, h4, h5, h6, h7, h8, h9, h10, h11, h12, h13, h14, h15, h16, h17⟩ := hagree c
  refine ⟨(h c).1.trans ?_, (h c).2.1.trans ?_, (h c).2.2⟩
  · exact (Cert.ReferenceIdeal.RefValue.ref_h_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans
      (Gh_congr (paramsOf_congr h3 h4 h5 h6 h7 h8 h9 h10 h11 h12 h13 h14 h15 h16 h17) h0 h1 h2)
  · exact (Cert.ReferenceIdeal.RefValue.ref_c_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))).trans
      (Gc_congr (paramsOf_congr h3 h4 h5 h6 h7 h8 h9 h10 h11 h12 h13 h14 h15 h16 h17) h0 h2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
